-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x128x128 : Shape := ⟨4, ![16, 64, 128, 128]⟩
abbrev S128x3 : Shape := ⟨2, ![128, 3]⟩
abbrev S128x16 : Shape := ⟨2, ![128, 16]⟩
abbrev S_ : Shape := ⟨0, ![]⟩
abbrev S128x2 : Shape := ⟨2, ![128, 2]⟩
abbrev S128x1 : Shape := ⟨2, ![128, 1]⟩

class Facts : Prop where
  bcast_S_S16x64x128x128 : S_.BroadcastsInDim S16x64x128x128 (![] : Fin 0 → Fin S16x64x128x128.rank)
  reducesTo_S16x64x128x128_S_d0_1_2_3 : S16x64x128x128.ReducesTo [0, 1, 2, 3] S_
  h_S_ : 0 < S_.numel
  bcast_S_S128x16 : S_.BroadcastsInDim S128x16 (![] : Fin 0 → Fin S128x16.rank)
  reducesTo_S128x16_S_d0_1 : S128x16.ReducesTo [0, 1] S_
  bcast_S_S128x3 : S_.BroadcastsInDim S128x3 (![] : Fin 0 → Fin S128x3.rank)
  reducesTo_S128x3_S_d0_1 : S128x3.ReducesTo [0, 1] S_
  slices_S128x3_S128x2_0_0 : S128x3.Slices ![0, 0] S128x2
  bcast_S_S128x2 : S_.BroadcastsInDim S128x2 (![] : Fin 0 → Fin S128x2.rank)
  reducesTo_S128x2_S_d0_1 : S128x2.ReducesTo [0, 1] S_
  slices_S128x3_S128x1_0_2 : S128x3.Slices ![0, 2] S128x1
  bcast_S_S128x1 : S_.BroadcastsInDim S128x1 (![] : Fin 0 → Fin S128x1.rank)
  reducesTo_S128x1_S_d0_1 : S128x1.ReducesTo [0, 1] S_

variable [Facts]

def fn_part2 {F : FTy → Type} [FloatOps F] (main_v22 : IVec S_ 1) (main_v30 : IVec S_ 1) (main_v31 : IVec S128x1 32) (main_v32 : IVec S128x1 32) : IVec S_ 1 :=
  let main_v33 : IVec S128x1 1 := cmpi .slt main_v31 main_v32
  let main_c_13 : IVec S_ 1 := constantI S_ 1 1#1
  let main_v34 : IVec S_ 1 := (fun x v => Host.reduce IntOp.andi x v reducesTo_S128x1_S_d0_1 h_S_) main_v33 main_c_13
  let main_v35 : IVec S_ 1 := andi main_v30 main_v34
  let main_v36 : IVec S_ 1 := andi main_v22 main_v35
  main_v36

def fn_part1 {F : FTy → Type} [FloatOps F] (main_arg1 : IVec S128x3 32) (main_arg2 : IVec S128x3 32) (main_v8 : IVec S_ 1) (main_v11 : IVec S_ 1) (main_v15 : IVec S_ 1) : IVec S_ 1 :=
  let main_v16 : IVec S_ 1 := andi main_v11 main_v15
  let main_v17 : IVec S128x1 32 := (extractStridedSlice S128x1 ![0, 2] · slices_S128x3_S128x1_0_2) main_arg1
  let main_c_6 : IVec S_ 32 := constantI S_ 32 64#32
  let main_v18 : IVec S128x1 32 := broadcastInDim S128x1 ![] bcast_S_S128x1 main_c_6
  let main_v19 : IVec S128x1 1 := cmpi .slt main_v17 main_v18
  let main_c_7 : IVec S_ 1 := constantI S_ 1 1#1
  let main_v20 : IVec S_ 1 := (fun x v => Host.reduce IntOp.andi x v reducesTo_S128x1_S_d0_1 h_S_) main_v19 main_c_7
  let main_v21 : IVec S_ 1 := andi main_v16 main_v20
  let main_v22 : IVec S_ 1 := andi main_v8 main_v21
  let main_c_8 : IVec S_ 32 := constantI S_ 32 0#32
  let main_v23 : IVec S128x3 32 := broadcastInDim S128x3 ![] bcast_S_S128x3 main_c_8
  let main_v24 : IVec S128x3 1 := cmpi .sge main_arg2 main_v23
  let main_c_9 : IVec S_ 1 := constantI S_ 1 1#1
  let main_v25 : IVec S_ 1 := (fun x v => Host.reduce IntOp.andi x v reducesTo_S128x3_S_d0_1 h_S_) main_v24 main_c_9
  let main_v26 : IVec S128x2 32 := (extractStridedSlice S128x2 ![0, 0] · slices_S128x3_S128x2_0_0) main_arg2
  let main_c_10 : IVec S_ 32 := constantI S_ 32 3#32
  let main_v27 : IVec S128x2 32 := broadcastInDim S128x2 ![] bcast_S_S128x2 main_c_10
  let main_v28 : IVec S128x2 1 := cmpi .slt main_v26 main_v27
  let main_c_11 : IVec S_ 1 := constantI S_ 1 1#1
  let main_v29 : IVec S_ 1 := (fun x v => Host.reduce IntOp.andi x v reducesTo_S128x2_S_d0_1 h_S_) main_v28 main_c_11
  let main_v30 : IVec S_ 1 := andi main_v25 main_v29
  let main_v31 : IVec S128x1 32 := (extractStridedSlice S128x1 ![0, 2] · slices_S128x3_S128x1_0_2) main_arg2
  let main_c_12 : IVec S_ 32 := constantI S_ 32 64#32
  let main_v32 : IVec S128x1 32 := broadcastInDim S128x1 ![] bcast_S_S128x1 main_c_12
  fn_part2 (F := F) main_v22 main_v30 main_v31 main_v32

def fn {F : FTy → Type} [FloatOps F] (main_arg0 : FVec F S16x64x128x128 .f32) (main_arg1 : IVec S128x3 32) (main_arg2 : IVec S128x3 32) (main_arg3 : FVec F S128x16 .f32) : IVec S_ 1 :=
  let main_v0 : FVec F S16x64x128x128 .f32 := Host.absf main_arg0
  let main_cst : FVec F S_ .f32 := constant S_ .f32 0x7F800000#32
  let main_v1 : FVec F S16x64x128x128 .f32 := broadcastInDim S16x64x128x128 ![] bcast_S_S16x64x128x128 main_cst
  let main_v2 : IVec S16x64x128x128 1 := cmpf .olt main_v0 main_v1
  let main_c : IVec S_ 1 := constantI S_ 1 1#1
  let main_v3 : IVec S_ 1 := (fun x v => Host.reduce IntOp.andi x v reducesTo_S16x64x128x128_S_d0_1_2_3 h_S_) main_v2 main_c
  let main_v4 : FVec F S128x16 .f32 := Host.absf main_arg3
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_c_2 : IVec S_ 32 := constantI S_ 32 0#32
  let main_v9 : IVec S128x3 32 := broadcastInDim S128x3 ![] bcast_S_S128x3 main_c_2
  let main_v10 : IVec S128x3 1 := cmpi .sge main_arg1 main_v9
  let main_c_3 : IVec S_ 1 := constantI S_ 1 1#1
  let main_v11 : IVec S_ 1 := (fun x v => Host.reduce IntOp.andi x v reducesTo_S128x3_S_d0_1 h_S_) main_v10 main_c_3
  let main_v12 : IVec S128x2 32 := (extractStridedSlice S128x2 ![0, 0] · slices_S128x3_S128x2_0_0) main_arg1
  let main_c_4 : IVec S_ 32 := constantI S_ 32 3#32
  let main_v13 : IVec S128x2 32 := broadcastInDim S128x2 ![] bcast_S_S128x2 main_c_4
  let main_v14 : IVec S128x2 1 := cmpi .slt main_v12 main_v13
  let main_c_5 : IVec S_ 1 := constantI S_ 1 1#1
  let main_v15 : IVec S_ 1 := (fun x v => Host.reduce IntOp.andi x v reducesTo_S128x2_S_d0_1 h_S_) main_v14 main_c_5
  fn_part1 (F := F) main_arg1 main_arg2 main_v8 main_v11 main_v15
-- ==== Kernel.lean ====
abbrev S16x64x128x128 : Shape := ⟨4, ![16, 64, 128, 128]⟩
abbrev S128x3 : Shape := ⟨2, ![128, 3]⟩
abbrev S128x16 : Shape := ⟨2, ![128, 16]⟩
abbrev S128x1 : Shape := ⟨2, ![128, 1]⟩
abbrev S128 : Shape := ⟨1, ![128]⟩
abbrev S_ : Shape := ⟨0, ![]⟩
abbrev S1x576 : Shape := ⟨2, ![1, 576]⟩
abbrev S128x576 : Shape := ⟨2, ![128, 576]⟩
abbrev S128x9x64 : Shape := ⟨3, ![128, 9, 64]⟩
abbrev S9x128x64 : Shape := ⟨3, ![9, 128, 64]⟩
abbrev S128x1x1 : Shape := ⟨3, ![128, 1, 1]⟩
abbrev S16x128x126x126 : Shape := ⟨4, ![16, 128, 126, 126]⟩
abbrev S1x64x128x128 : Shape := ⟨4, ![1, 64, 128, 128]⟩
abbrev S9x64x64 : Shape := ⟨3, ![9, 64, 64]⟩
abbrev S64x1x1 : Shape := ⟨3, ![64, 1, 1]⟩
abbrev S1x64x126x126 : Shape := ⟨4, ![1, 64, 126, 126]⟩
abbrev S64x126x126 : Shape := ⟨3, ![64, 126, 126]⟩
abbrev S64x128x128 : Shape := ⟨3, ![64, 128, 128]⟩
abbrev S64x16384 : Shape := ⟨2, ![64, 16384]⟩
abbrev S1x64x64 : Shape := ⟨3, ![1, 64, 64]⟩
abbrev S64x64 : Shape := ⟨2, ![64, 64]⟩

abbrev nBuf : Space → Nat
  | .hbm => 157
  | .vmem => 18
  | .smem => 0
  | _ => 0

abbrev hbmTy0_0 (i : Nat) : BufTy := match i % 128 with
  | 0 => ⟨S16x64x128x128, .f32⟩
  | 1 => ⟨S128x3, .i32⟩
  | 2 => ⟨S128x3, .i32⟩
  | 3 => ⟨S128x16, .f32⟩
  | 4 => ⟨S128x1, .i32⟩
  | 5 => ⟨S128, .i32⟩
  | 6 => ⟨S128x1, .i32⟩
  | 7 => ⟨S128, .i32⟩
  | 8 => ⟨S128x1, .i32⟩
  | 9 => ⟨S128, .i32⟩
  | 10 => ⟨S_, .i32⟩
  | 11 => ⟨S128, .i32⟩
  | 12 => ⟨S128, .i32⟩
  | 13 => ⟨S128, .i32⟩
  | 14 => ⟨S_, .i32⟩
  | 15 => ⟨S128, .i32⟩
  | 16 => ⟨S128, .i32⟩
  | 17 => ⟨S128, .i32⟩
  | 18 => ⟨S128x1, .i32⟩
  | 19 => ⟨S1x576, .i32⟩
  | 20 => ⟨S128x576, .i32⟩
  | 21 => ⟨S128x576, .i32⟩
  | 22 => ⟨S128x576, .i1⟩
  | 23 => ⟨S128x576, .f32⟩
  | 24 => ⟨S128x9x64, .f32⟩
  | 25 => ⟨S9x128x64, .f32⟩
  | 26 => ⟨S128x1, .i32⟩
  | 27 => ⟨S128, .i32⟩
  | 28 => ⟨S128x1, .i32⟩
  | 29 => ⟨S128, .i32⟩
  | 30 => ⟨S128x1, .i32⟩
  | 31 => ⟨S128, .i32⟩
  | 32 => ⟨S_, .i32⟩
  | 33 => ⟨S128, .i32⟩
  | 34 => ⟨S128, .i32⟩
  | 35 => ⟨S128, .i32⟩
  | 36 => ⟨S_, .i32⟩
  | 37 => ⟨S128, .i32⟩
  | 38 => ⟨S128, .i32⟩
  | 39 => ⟨S128, .i32⟩
  | 40 => ⟨S128x1, .i32⟩
  | 41 => ⟨S1x576, .i32⟩
  | 42 => ⟨S128x576, .i32⟩
  | 43 => ⟨S128x576, .i32⟩
  | 44 => ⟨S128x576, .i1⟩
  | 45 => ⟨S128x576, .f32⟩
  | 46 => ⟨S128x9x64, .f32⟩
  | 47 => ⟨S9x128x64, .f32⟩
  | 48 => ⟨S128x1, .f32⟩
  | 49 => ⟨S128, .f32⟩
  | 50 => ⟨S128x1, .f32⟩
  | 51 => ⟨S128, .f32⟩
  | 52 => ⟨S128, .f32⟩
  | 53 => ⟨S128x1, .f32⟩
  | 54 => ⟨S128, .f32⟩
  | 55 => ⟨S128, .f32⟩
  | 56 => ⟨S128x1, .f32⟩
  | 57 => ⟨S128, .f32⟩
  | 58 => ⟨S128, .f32⟩
  | 59 => ⟨S128x1, .f32⟩
  | 60 => ⟨S128, .f32⟩
  | 61 => ⟨S128, .f32⟩
  | 62 => ⟨S128x1, .f32⟩
  | 63 => ⟨S128, .f32⟩
  | 64 => ⟨S128, .f32⟩
  | 65 => ⟨S128x1, .f32⟩
  | 66 => ⟨S128, .f32⟩
  | 67 => ⟨S128, .f32⟩
  | 68 => ⟨S128x1, .f32⟩
  | 69 => ⟨S128, .f32⟩
  | 70 => ⟨S128, .f32⟩
  | 71 => ⟨S128x1x1, .f32⟩
  | 72 => ⟨S128x1, .f32⟩
  | 73 => ⟨S128, .f32⟩
  | 74 => ⟨S128x1, .f32⟩
  | 75 => ⟨S128, .f32⟩
  | 76 => ⟨S128, .f32⟩
  | 77 => ⟨S128x1, .f32⟩
  | 78 => ⟨S128, .f32⟩
  | 79 => ⟨S128, .f32⟩
  | 80 => ⟨S128x1, .f32⟩
  | 81 => ⟨S128, .f32⟩
  | 82 => ⟨S128, .f32⟩
  | 83 => ⟨S128x1, .f32⟩
  | 84 => ⟨S128, .f32⟩
  | 85 => ⟨S128, .f32⟩
  | 86 => ⟨S128x1, .f32⟩
  | 87 => ⟨S128, .f32⟩
  | 88 => ⟨S128, .f32⟩
  | 89 => ⟨S128x1, .f32⟩
  | 90 => ⟨S128, .f32⟩
  | 91 => ⟨S128, .f32⟩
  | 92 => ⟨S128x1, .f32⟩
  | 93 => ⟨S128, .f32⟩
  | 94 => ⟨S128, .f32⟩
  | 95 => ⟨S128x1x1, .f32⟩
  | 96 => ⟨S128x1, .f32⟩
  | 97 => ⟨S128, .f32⟩
  | 98 => ⟨S128x1, .f32⟩
  | 99 => ⟨S128, .f32⟩
  | 100 => ⟨S128, .f32⟩
  | 101 => ⟨S128x1, .f32⟩
  | 102 => ⟨S128, .f32⟩
  | 103 => ⟨S128, .f32⟩
  | 104 => ⟨S128x1, .f32⟩
  | 105 => ⟨S128, .f32⟩
  | 106 => ⟨S_, .f32⟩
  | 107 => ⟨S128, .f32⟩
  | 108 => ⟨S128, .f32⟩
  | 109 => ⟨S128, .f32⟩
  | 110 => ⟨S128x1, .f32⟩
  | 111 => ⟨S128, .f32⟩
  | 112 => ⟨S128, .f32⟩
  | 113 => ⟨S128x1, .f32⟩
  | 114 => ⟨S128, .f32⟩
  | 115 => ⟨S128, .f32⟩
  | 116 => ⟨S128x1, .f32⟩
  | 117 => ⟨S128, .f32⟩
  | 118 => ⟨S_, .f32⟩
  | 119 => ⟨S128, .f32⟩
  | 120 => ⟨S128, .f32⟩
  | 121 => ⟨S128, .f32⟩
  | 122 => ⟨S128x1, .f32⟩
  | 123 => ⟨S128, .f32⟩
  | 124 => ⟨S128, .f32⟩
  | 125 => ⟨S128x1, .f32⟩
  | 126 => ⟨S128, .f32⟩
  | 127 => ⟨S128, .f32⟩
  | _ => ⟨S16x64x128x128, .f32⟩

abbrev hbmTy0_1 (i : Nat) : BufTy := match i % 128 with
  | 0 => ⟨S128x1, .f32⟩
  | 1 => ⟨S128, .f32⟩
  | 2 => ⟨S128, .f32⟩
  | 3 => ⟨S128x1x1, .f32⟩
  | 4 => ⟨S128x1, .f32⟩
  | 5 => ⟨S128, .f32⟩
  | 6 => ⟨S128x1, .f32⟩
  | 7 => ⟨S128, .f32⟩
  | 8 => ⟨S128, .f32⟩
  | 9 => ⟨S128x1, .f32⟩
  | 10 => ⟨S128, .f32⟩
  | 11 => ⟨S128, .f32⟩
  | 12 => ⟨S128x1, .f32⟩
  | 13 => ⟨S128, .f32⟩
  | 14 => ⟨S128, .f32⟩
  | 15 => ⟨S128x1, .f32⟩
  | 16 => ⟨S128, .f32⟩
  | 17 => ⟨S128, .f32⟩
  | 18 => ⟨S128x1, .f32⟩
  | 19 => ⟨S128, .f32⟩
  | 20 => ⟨S128, .f32⟩
  | 21 => ⟨S128x1, .f32⟩
  | 22 => ⟨S128, .f32⟩
  | 23 => ⟨S128, .f32⟩
  | 24 => ⟨S128x1, .f32⟩
  | 25 => ⟨S128, .f32⟩
  | 26 => ⟨S128, .f32⟩
  | 27 => ⟨S128x1x1, .f32⟩
  | 28 => ⟨S16x128x126x126, .f32⟩
  | _ => ⟨S16x64x128x128, .f32⟩

abbrev hbmTy (i : Nat) : BufTy := match i / 128 with
  | 0 => hbmTy0_0 i
  | 1 => hbmTy0_1 i
  | _ => ⟨S16x64x128x128, .f32⟩

abbrev bufTy : (tb : Table) → Fin (tcTables nBuf tb) → BufTy
  | .hbm, ⟨i, _⟩ => hbmTy i
  | .local _ .vmem, ⟨0, _⟩ => ⟨S1x64x128x128, .f32⟩
  | .local _ .vmem, ⟨1, _⟩ => ⟨S1x64x128x128, .f32⟩
  | .local _ .vmem, ⟨2, _⟩ => ⟨S9x64x64, .f32⟩
  | .local _ .vmem, ⟨3, _⟩ => ⟨S9x64x64, .f32⟩
  | .local _ .vmem, ⟨4, _⟩ => ⟨S9x64x64, .f32⟩
  | .local _ .vmem, ⟨5, _⟩ => ⟨S9x64x64, .f32⟩
  | .local _ .vmem, ⟨6, _⟩ => ⟨S64x1x1, .f32⟩
  | .local _ .vmem, ⟨7, _⟩ => ⟨S64x1x1, .f32⟩
  | .local _ .vmem, ⟨8, _⟩ => ⟨S64x1x1, .f32⟩
  | .local _ .vmem, ⟨9, _⟩ => ⟨S64x1x1, .f32⟩
  | .local _ .vmem, ⟨10, _⟩ => ⟨S64x1x1, .f32⟩
  | .local _ .vmem, ⟨11, _⟩ => ⟨S64x1x1, .f32⟩
  | .local _ .vmem, ⟨12, _⟩ => ⟨S64x1x1, .f32⟩
  | .local _ .vmem, ⟨13, _⟩ => ⟨S64x1x1, .f32⟩
  | .local _ .vmem, ⟨14, _⟩ => ⟨S1x64x126x126, .f32⟩
  | .local _ .vmem, ⟨15, _⟩ => ⟨S1x64x126x126, .f32⟩
  | .local _ .vmem, ⟨16, _⟩ => ⟨S64x126x126, .f32⟩
  | .local _ .vmem, ⟨17, _⟩ => ⟨S64x126x126, .f32⟩
  | _, _ => ⟨S16x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_cst_3 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S9x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S9x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S64x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x64x126x126 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S128x3_S128x1_0_0 : S128x3.Slices ![0, 0] S128x1
  shapeCasts_S128x1_S128 : S128x1.ShapeCasts S128
  slices_S128x3_S128x1_0_1 : S128x3.Slices ![0, 1] S128x1
  slices_S128x3_S128x1_0_2 : S128x3.Slices ![0, 2] S128x1
  bcast_S_S128 : S_.BroadcastsInDim S128 (![] : Fin 0 → Fin S128.rank)
  bcast_S128_S128x1_0 : S128.BroadcastsInDim S128x1 (![0] : Fin 1 → Fin S128x1.rank)
  bcast_S128x1_S128x576_0_1 : S128x1.BroadcastsInDim S128x576 (![0, 1] : Fin 2 → Fin S128x576.rank)
  bcast_S1x576_S128x576_0_1 : S1x576.BroadcastsInDim S128x576 (![0, 1] : Fin 2 → Fin S128x576.rank)
  shapeCasts_S128x576_S128x9x64 : S128x576.ShapeCasts S128x9x64
  transposes_S128x9x64_S9x128x64_1_0_2 : S128x9x64.Transposes [1, 0, 2] S9x128x64
  slices_S128x16_S128x1_0_2 : S128x16.Slices ![0, 2] S128x1
  slices_S128x16_S128x1_0_3 : S128x16.Slices ![0, 3] S128x1
  slices_S128x16_S128x1_0_6 : S128x16.Slices ![0, 6] S128x1
  slices_S128x16_S128x1_0_7 : S128x16.Slices ![0, 7] S128x1
  slices_S128x16_S128x1_0_8 : S128x16.Slices ![0, 8] S128x1
  slices_S128x16_S128x1_0_9 : S128x16.Slices ![0, 9] S128x1
  slices_S128x16_S128x1_0_12 : S128x16.Slices ![0, 12] S128x1
  slices_S128x16_S128x1_0_13 : S128x16.Slices ![0, 13] S128x1
  shapeCasts_S128_S128x1x1 : S128.ShapeCasts S128x1x1
  slices_S128x16_S128x1_0_4 : S128x16.Slices ![0, 4] S128x1
  slices_S128x16_S128x1_0_5 : S128x16.Slices ![0, 5] S128x1
  slices_S128x16_S128x1_0_10 : S128x16.Slices ![0, 10] S128x1
  slices_S128x16_S128x1_0_11 : S128x16.Slices ![0, 11] S128x1
  slices_S128x16_S128x1_0_1 : S128x16.Slices ![0, 1] S128x1
  slices_S128x16_S128x1_0_14 : S128x16.Slices ![0, 14] S128x1
  slices_S128x16_S128x1_0_15 : S128x16.Slices ![0, 15] S128x1
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S64x16384 : S64x128x128.ShapeCasts S64x16384
  bitsLt_bf16_f32 : FTy.bits .bf16 < FTy.bits .f32
  inb_S64x126x126_S64x126x126_0_0_0 : ∀ a, (![0, 0, 0] : Fin 3 → Nat) a + S64x126x126.size a ≤ S64x126x126.size a
  h_S64x126x126 : 0 < S64x126x126.numel
  shapeCasts_S64x126x126_S64x126x126 : S64x126x126.ShapeCasts S64x126x126
  inb_S9x64x64_S1x64x64_0_0_0 : ∀ a, (![0, 0, 0] : Fin 3 → Nat) a + S1x64x64.size a ≤ S9x64x64.size a
  h_S1x64x64 : 0 < S1x64x64.numel
  shapeCasts_S1x64x64_S64x64 : S1x64x64.ShapeCasts S64x64
  shapeCasts_S64x16384_S64x128x128 : S64x16384.ShapeCasts S64x128x128
  slices_S64x128x128_o0_0_0_S64x126x126 : S64x128x128.Slices ![0, 0, 0] S64x126x126
  inb_S9x64x64_S1x64x64_1_0_0 : ∀ a, (![1, 0, 0] : Fin 3 → Nat) a + S1x64x64.size a ≤ S9x64x64.size a
  slices_S64x128x128_o0_0_1_S64x126x126 : S64x128x128.Slices ![0, 0, 1] S64x126x126
  inb_S9x64x64_S1x64x64_2_0_0 : ∀ a, (![2, 0, 0] : Fin 3 → Nat) a + S1x64x64.size a ≤ S9x64x64.size a
  slices_S64x128x128_o0_0_2_S64x126x126 : S64x128x128.Slices ![0, 0, 2] S64x126x126
  inb_S9x64x64_S1x64x64_3_0_0 : ∀ a, (![3, 0, 0] : Fin 3 → Nat) a + S1x64x64.size a ≤ S9x64x64.size a
  slices_S64x128x128_o0_1_0_S64x126x126 : S64x128x128.Slices ![0, 1, 0] S64x126x126
  inb_S9x64x64_S1x64x64_4_0_0 : ∀ a, (![4, 0, 0] : Fin 3 → Nat) a + S1x64x64.size a ≤ S9x64x64.size a
  slices_S64x128x128_o0_1_1_S64x126x126 : S64x128x128.Slices ![0, 1, 1] S64x126x126
  inb_S9x64x64_S1x64x64_5_0_0 : ∀ a, (![5, 0, 0] : Fin 3 → Nat) a + S1x64x64.size a ≤ S9x64x64.size a
  slices_S64x128x128_o0_1_2_S64x126x126 : S64x128x128.Slices ![0, 1, 2] S64x126x126
  inb_S9x64x64_S1x64x64_6_0_0 : ∀ a, (![6, 0, 0] : Fin 3 → Nat) a + S1x64x64.size a ≤ S9x64x64.size a
  slices_S64x128x128_o0_2_0_S64x126x126 : S64x128x128.Slices ![0, 2, 0] S64x126x126
  inb_S9x64x64_S1x64x64_7_0_0 : ∀ a, (![7, 0, 0] : Fin 3 → Nat) a + S1x64x64.size a ≤ S9x64x64.size a
  slices_S64x128x128_o0_2_1_S64x126x126 : S64x128x128.Slices ![0, 2, 1] S64x126x126
  inb_S9x64x64_S1x64x64_8_0_0 : ∀ a, (![8, 0, 0] : Fin 3 → Nat) a + S1x64x64.size a ≤ S9x64x64.size a
  slices_S64x128x128_o0_2_2_S64x126x126 : S64x128x128.Slices ![0, 2, 2] S64x126x126
  inb_S64x1x1_S64x1x1_0_0_0 : ∀ a, (![0, 0, 0] : Fin 3 → Nat) a + S64x1x1.size a ≤ S64x1x1.size a
  h_S64x1x1 : 0 < S64x1x1.numel
  shapeCasts_S64x1x1_S64x1x1 : S64x1x1.ShapeCasts S64x1x1
  broadcasts_S64x1x1_S64x126x126 : S64x1x1.Broadcasts S64x126x126
  inb_S1x64x126x126_S1x64x126x126_0_0_0_0 : ∀ a, (![0, 0, 0, 0] : Fin 4 → Nat) a + S1x64x126x126.size a ≤ S1x64x126x126.size a
  h_S1x64x126x126 : 0 < S1x64x126x126.numel
  shapeCasts_S1x64x126x126_S64x126x126 : S1x64x126x126.ShapeCasts S64x126x126
  shapeCasts_S64x126x126_S1x64x126x126 : S64x126x126.ShapeCasts S1x64x126x126
  dot_S64x64_S64x16384_S64x16384_1_0_0_1_n_n_wf : DotDims.WF S64x64 S64x16384 S64x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x128.size a ≤ S16x64x128x128.size a
  hwx0_0 : ∀ i : grid0.Coords, EltTy.bits .f32 = 32 ∨ (Rect.block (s := S16x64x128x128) S1x64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x64x64.size a ≤ S9x128x64.size a
  hwx0_1 : ∀ i : grid0.Coords, EltTy.bits .f32 = 32 ∨ (Rect.block (s := S9x128x64) S9x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x64x64.size a ≤ S9x128x64.size a
  hwx0_2 : ∀ i : grid0.Coords, EltTy.bits .f32 = 32 ∨ (Rect.block (s := S9x128x64) S9x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1x1.size a ≤ S128x1x1.size a
  hwx0_3 : ∀ i : grid0.Coords, EltTy.bits .f32 = 32 ∨ (Rect.block (s := S128x1x1) S64x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1x1.size a ≤ S128x1x1.size a
  hwx0_4 : ∀ i : grid0.Coords, EltTy.bits .f32 = 32 ∨ (Rect.block (s := S128x1x1) S64x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1x1.size a ≤ S128x1x1.size a
  hwx0_5 : ∀ i : grid0.Coords, EltTy.bits .f32 = 32 ∨ (Rect.block (s := S128x1x1) S64x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1x1.size a ≤ S128x1x1.size a
  hwx0_6 : ∀ i : grid0.Coords, EltTy.bits .f32 = 32 ∨ (Rect.block (s := S128x1x1) S64x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x126x126.size a ≤ S16x128x126x126.size a
  hwx0_7 : ∀ i : grid0.Coords, EltTy.bits .f32 = 32 ∨ (Rect.block (s := S16x128x126x126) S1x64x126x126.size (cc0_transform_7 i) (hinb0_7 i)).WholeWords (EltTy.packing .f32)

variable [Facts₀]

def dot_S64x64_S64x16384_S64x16384_1_0_0_1_n_n : DotDims S64x64 S64x16384 S64x16384 where
  lhsContracting := [1]
  rhsContracting := [0]
  lhsNonContracting := [0]
  rhsNonContracting := [1]
  lhsBatch := []
  rhsBatch := []
  wf := dot_S64x64_S64x16384_S64x16384_1_0_0_1_n_n_wf

abbrev win0_0 : Pipeline.Window sig grid0 :=
  Pipeline.Window.ofSpec (Memref.whole main_arg0) S1x64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S9x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S9x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v53) S64x1x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v77) S64x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v111) S64x1x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v135) S64x1x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v136) S1x64x126x126.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x64x128x128 : Shape := ⟨4, ![16, 64, 128, 128]⟩
abbrev S128x3 : Shape := ⟨2, ![128, 3]⟩
abbrev S128x16 : Shape := ⟨2, ![128, 16]⟩
abbrev S128x1 : Shape := ⟨2, ![128, 1]⟩
abbrev S128 : Shape := ⟨1, ![128]⟩
abbrev S126 : Shape := ⟨1, ![126]⟩
abbrev S128x1x1 : Shape := ⟨3, ![128, 1, 1]⟩
abbrev S1x126x1 : Shape := ⟨3, ![1, 126, 1]⟩
abbrev S128x126x1 : Shape := ⟨3, ![128, 126, 1]⟩
abbrev S1x1x126 : Shape := ⟨3, ![1, 1, 126]⟩
abbrev S128x1x126 : Shape := ⟨3, ![128, 1, 126]⟩
abbrev S_ : Shape := ⟨0, ![]⟩
abbrev S128x126x126 : Shape := ⟨3, ![128, 126, 126]⟩
abbrev S128x126x126x1 : Shape := ⟨4, ![128, 126, 126, 1]⟩
abbrev S128x126x126x3 : Shape := ⟨4, ![128, 126, 126, 3]⟩
abbrev S16x128x126x126 : Shape := ⟨4, ![16, 128, 126, 126]⟩
abbrev S16x128 : Shape := ⟨2, ![16, 128]⟩
abbrev S16x1x128x1x1 : Shape := ⟨5, ![16, 1, 128, 1, 1]⟩
abbrev S1x1x128x1x1 : Shape := ⟨5, ![1, 1, 128, 1, 1]⟩
abbrev S1x128x1x1 : Shape := ⟨4, ![1, 128, 1, 1]⟩

abbrev nBuf : Space → Nat
  | .hbm => 218
  | .vmem => 0
  | .smem => 0
  | _ => 0

abbrev hbmTy0_0 (i : Nat) : BufTy := match i % 128 with
  | 0 => ⟨S16x64x128x128, .f32⟩
  | 1 => ⟨S128x3, .i32⟩
  | 2 => ⟨S128x3, .i32⟩
  | 3 => ⟨S128x16, .f32⟩
  | 4 => ⟨S128x1, .i32⟩
  | 5 => ⟨S128, .i32⟩
  | 6 => ⟨S128x1, .i32⟩
  | 7 => ⟨S128, .i32⟩
  | 8 => ⟨S128x1, .i32⟩
  | 9 => ⟨S128, .i32⟩
  | 10 => ⟨S126, .i32⟩
  | 11 => ⟨S126, .i32⟩
  | 12 => ⟨S128x1x1, .i32⟩
  | 13 => ⟨S128x1x1, .i32⟩
  | 14 => ⟨S1x126x1, .i32⟩
  | 15 => ⟨S128x126x1, .i32⟩
  | 16 => ⟨S128x126x1, .i32⟩
  | 17 => ⟨S128x126x1, .i32⟩
  | 18 => ⟨S128x1x1, .i32⟩
  | 19 => ⟨S1x1x126, .i32⟩
  | 20 => ⟨S128x1x126, .i32⟩
  | 21 => ⟨S128x1x126, .i32⟩
  | 22 => ⟨S128x1x126, .i32⟩
  | 23 => ⟨S_, .i32⟩
  | 24 => ⟨S128x1x1, .i32⟩
  | 25 => ⟨S128x1x1, .i1⟩
  | 26 => ⟨S_, .i32⟩
  | 27 => ⟨S128x1x1, .i32⟩
  | 28 => ⟨S128x1x1, .i32⟩
  | 29 => ⟨S128x1x1, .i32⟩
  | 30 => ⟨S_, .i32⟩
  | 31 => ⟨S128x126x1, .i32⟩
  | 32 => ⟨S128x126x1, .i1⟩
  | 33 => ⟨S_, .i32⟩
  | 34 => ⟨S128x126x1, .i32⟩
  | 35 => ⟨S128x126x1, .i32⟩
  | 36 => ⟨S128x126x1, .i32⟩
  | 37 => ⟨S_, .i32⟩
  | 38 => ⟨S128x1x126, .i32⟩
  | 39 => ⟨S128x1x126, .i1⟩
  | 40 => ⟨S_, .i32⟩
  | 41 => ⟨S128x1x126, .i32⟩
  | 42 => ⟨S128x1x126, .i32⟩
  | 43 => ⟨S128x1x126, .i32⟩
  | 44 => ⟨S128x126x126, .i32⟩
  | 45 => ⟨S128x126x126, .i32⟩
  | 46 => ⟨S128x126x126, .i32⟩
  | 47 => ⟨S128x126x126x1, .i32⟩
  | 48 => ⟨S128x126x126x1, .i32⟩
  | 49 => ⟨S128x126x126x1, .i32⟩
  | 50 => ⟨S128x126x126x3, .i32⟩
  | 51 => ⟨S16x128x126x126, .f32⟩
  | 52 => ⟨S128x1, .i32⟩
  | 53 => ⟨S128, .i32⟩
  | 54 => ⟨S128x1, .i32⟩
  | 55 => ⟨S128, .i32⟩
  | 56 => ⟨S128x1, .i32⟩
  | 57 => ⟨S128, .i32⟩
  | 58 => ⟨S126, .i32⟩
  | 59 => ⟨S126, .i32⟩
  | 60 => ⟨S128x1x1, .i32⟩
  | 61 => ⟨S128x1x1, .i32⟩
  | 62 => ⟨S1x126x1, .i32⟩
  | 63 => ⟨S128x126x1, .i32⟩
  | 64 => ⟨S128x126x1, .i32⟩
  | 65 => ⟨S128x126x1, .i32⟩
  | 66 => ⟨S128x1x1, .i32⟩
  | 67 => ⟨S1x1x126, .i32⟩
  | 68 => ⟨S128x1x126, .i32⟩
  | 69 => ⟨S128x1x126, .i32⟩
  | 70 => ⟨S128x1x126, .i32⟩
  | 71 => ⟨S_, .i32⟩
  | 72 => ⟨S128x1x1, .i32⟩
  | 73 => ⟨S128x1x1, .i1⟩
  | 74 => ⟨S_, .i32⟩
  | 75 => ⟨S128x1x1, .i32⟩
  | 76 => ⟨S128x1x1, .i32⟩
  | 77 => ⟨S128x1x1, .i32⟩
  | 78 => ⟨S_, .i32⟩
  | 79 => ⟨S128x126x1, .i32⟩
  | 80 => ⟨S128x126x1, .i1⟩
  | 81 => ⟨S_, .i32⟩
  | 82 => ⟨S128x126x1, .i32⟩
  | 83 => ⟨S128x126x1, .i32⟩
  | 84 => ⟨S128x126x1, .i32⟩
  | 85 => ⟨S_, .i32⟩
  | 86 => ⟨S128x1x126, .i32⟩
  | 87 => ⟨S128x1x126, .i1⟩
  | 88 => ⟨S_, .i32⟩
  | 89 => ⟨S128x1x126, .i32⟩
  | 90 => ⟨S128x1x126, .i32⟩
  | 91 => ⟨S128x1x126, .i32⟩
  | 92 => ⟨S128x126x126, .i32⟩
  | 93 => ⟨S128x126x126, .i32⟩
  | 94 => ⟨S128x126x126, .i32⟩
  | 95 => ⟨S128x126x126x1, .i32⟩
  | 96 => ⟨S128x126x126x1, .i32⟩
  | 97 => ⟨S128x126x126x1, .i32⟩
  | 98 => ⟨S128x126x126x3, .i32⟩
  | 99 => ⟨S16x128x126x126, .f32⟩
  | 100 => ⟨S16x128x126x126, .f32⟩
  | 101 => ⟨S16x128, .f32⟩
  | 102 => ⟨S16x1x128x1x1, .f32⟩
  | 103 => ⟨S1x1x128x1x1, .f32⟩
  | 104 => ⟨S1x128x1x1, .f32⟩
  | 105 => ⟨S16x128x126x126, .f32⟩
  | 106 => ⟨S16x128x126x126, .f32⟩
  | 107 => ⟨S1x1x128x1x1, .f32⟩
  | 108 => ⟨S1x128x1x1, .f32⟩
  | 109 => ⟨S16x128x126x126, .f32⟩
  | 110 => ⟨S16x128x126x126, .f32⟩
  | 111 => ⟨S16x128x126x126, .f32⟩
  | 112 => ⟨S16x128x126x126, .f32⟩
  | 113 => ⟨S1x1x128x1x1, .f32⟩
  | 114 => ⟨S1x128x1x1, .f32⟩
  | 115 => ⟨S16x128x126x126, .f32⟩
  | 116 => ⟨S16x128x126x126, .f32⟩
  | 117 => ⟨S16x128x126x126, .f32⟩
  | 118 => ⟨S1x1x128x1x1, .f32⟩
  | 119 => ⟨S1x128x1x1, .f32⟩
  | 120 => ⟨S16x128x126x126, .f32⟩
  | 121 => ⟨S16x128x126x126, .f32⟩
  | 122 => ⟨S16x128x126x126, .f32⟩
  | 123 => ⟨S16x128x126x126, .f32⟩
  | 124 => ⟨S1x1x128x1x1, .f32⟩
  | 125 => ⟨S1x128x1x1, .f32⟩
  | 126 => ⟨S16x128x126x126, .f32⟩
  | 127 => ⟨S16x128x126x126, .f32⟩
  | _ => ⟨S16x64x128x128, .f32⟩

abbrev hbmTy0_1 (i : Nat) : BufTy := match i % 128 with
  | 0 => ⟨S16x128x126x126, .f32⟩
  | 1 => ⟨S1x1x128x1x1, .f32⟩
  | 2 => ⟨S1x128x1x1, .f32⟩
  | 3 => ⟨S16x128x126x126, .f32⟩
  | 4 => ⟨S_, .f32⟩
  | 5 => ⟨S16x128x126x126, .f32⟩
  | 6 => ⟨S16x128x126x126, .f32⟩
  | 7 => ⟨S16x128x126x126, .f32⟩
  | 8 => ⟨S16x128x126x126, .f32⟩
  | 9 => ⟨S16x128x126x126, .f32⟩
  | 10 => ⟨S16x128x126x126, .f32⟩
  | 11 => ⟨S1x1x128x1x1, .f32⟩
  | 12 => ⟨S1x128x1x1, .f32⟩
  | 13 => ⟨S16x128x126x126, .f32⟩
  | 14 => ⟨S16x128x126x126, .f32⟩
  | 15 => ⟨S16x128x126x126, .f32⟩
  | 16 => ⟨S16x128x126x126, .f32⟩
  | 17 => ⟨S16x128x126x126, .f32⟩
  | 18 => ⟨S1x1x128x1x1, .f32⟩
  | 19 => ⟨S1x128x1x1, .f32⟩
  | 20 => ⟨S16x128x126x126, .f32⟩
  | 21 => ⟨S16x128x126x126, .f32⟩
  | 22 => ⟨S_, .f32⟩
  | 23 => ⟨S16x128x126x126, .f32⟩
  | 24 => ⟨S16x128x126x126, .f32⟩
  | 25 => ⟨S16x128x126x126, .f32⟩
  | 26 => ⟨S16x128x126x126, .f32⟩
  | 27 => ⟨S16x128x126x126, .f32⟩
  | 28 => ⟨S1x1x128x1x1, .f32⟩
  | 29 => ⟨S1x128x1x1, .f32⟩
  | 30 => ⟨S16x128x126x126, .f32⟩
  | 31 => ⟨S_, .f32⟩
  | 32 => ⟨S16x128x126x126, .f32⟩
  | 33 => ⟨S16x128x126x126, .f32⟩
  | 34 => ⟨S16x128x126x126, .f32⟩
  | 35 => ⟨S_, .f32⟩
  | 36 => ⟨S16x128x126x126, .f32⟩
  | 37 => ⟨S16x128x126x126, .f32⟩
  | 38 => ⟨S16x128x126x126, .f32⟩
  | 39 => ⟨S16x128x126x126, .f32⟩
  | 40 => ⟨S16x128x126x126, .f32⟩
  | 41 => ⟨S1x1x128x1x1, .f32⟩
  | 42 => ⟨S1x128x1x1, .f32⟩
  | 43 => ⟨S_, .f32⟩
  | 44 => ⟨S16x128x126x126, .f32⟩
  | 45 => ⟨S16x128x126x126, .f32⟩
  | 46 => ⟨S16x128x126x126, .f32⟩
  | 47 => ⟨S16x128x126x126, .f32⟩
  | 48 => ⟨S16x128x126x126, .f32⟩
  | 49 => ⟨S1x1x128x1x1, .f32⟩
  | 50 => ⟨S1x128x1x1, .f32⟩
  | 51 => ⟨S_, .f32⟩
  | 52 => ⟨S16x128x126x126, .f32⟩
  | 53 => ⟨S16x128x126x126, .f32⟩
  | 54 => ⟨S16x128x126x126, .f32⟩
  | 55 => ⟨S16x128x126x126, .f32⟩
  | 56 => ⟨S16x128x126x126, .f32⟩
  | 57 => ⟨S16x128x126x126, .f32⟩
  | 58 => ⟨S1x1x128x1x1, .f32⟩
  | 59 => ⟨S1x128x1x1, .f32⟩
  | 60 => ⟨S_, .f32⟩
  | 61 => ⟨S16x128x126x126, .f32⟩
  | 62 => ⟨S16x128x126x126, .f32⟩
  | 63 => ⟨S16x128x126x126, .f32⟩
  | 64 => ⟨S16x128x126x126, .f32⟩
  | 65 => ⟨S16x128x126x126, .f32⟩
  | 66 => ⟨S1x1x128x1x1, .f32⟩
  | 67 => ⟨S1x128x1x1, .f32⟩
  | 68 => ⟨S_, .f32⟩
  | 69 => ⟨S16x128x126x126, .f32⟩
  | 70 => ⟨S16x128x126x126, .f32⟩
  | 71 => ⟨S16x128x126x126, .f32⟩
  | 72 => ⟨S16x128x126x126, .f32⟩
  | 73 => ⟨S16x128x126x126, .f32⟩
  | 74 => ⟨S16x128x126x126, .f32⟩
  | 75 => ⟨S1x1x128x1x1, .f32⟩
  | 76 => ⟨S1x128x1x1, .f32⟩
  | 77 => ⟨S_, .f32⟩
  | 78 => ⟨S16x128x126x126, .f32⟩
  | 79 => ⟨S16x128x126x126, .f32⟩
  | 80 => ⟨S16x128x126x126, .f32⟩
  | 81 => ⟨S16x128x126x126, .f32⟩
  | 82 => ⟨S16x128x126x126, .f32⟩
  | 83 => ⟨S1x1x128x1x1, .f32⟩
  | 84 => ⟨S1x128x1x1, .f32⟩
  | 85 => ⟨S_, .f32⟩
  | 86 => ⟨S16x128x126x126, .f32⟩
  | 87 => ⟨S16x128x126x126, .f32⟩
  | 88 => ⟨S16x128x126x126, .f32⟩
  | 89 => ⟨S16x128x126x126, .f32⟩
  | _ => ⟨S16x64x128x128, .f32⟩

abbrev hbmTy (i : Nat) : BufTy := match i / 128 with
  | 0 => hbmTy0_0 i
  | 1 => hbmTy0_1 i
  | _ => ⟨S16x64x128x128, .f32⟩

abbrev bufTy : (tb : Table) → Fin (tcTables nBuf tb) → BufTy
  | .hbm, ⟨i, _⟩ => hbmTy i
  | _, _ => ⟨S16x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_3 : Ref sig .tc := ⟨.hbm, 37, rfl⟩
abbrev main_v29 : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_c_5 : Ref sig .tc := ⟨.hbm, 71, rfl⟩
abbrev main_v61 : Ref sig .tc := ⟨.hbm, 72, rfl⟩
abbrev main_v62 : Ref sig .tc := ⟨.hbm, 73, rfl⟩
abbrev main_c_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_c_7 : Ref sig .tc := ⟨.hbm, 78, rfl⟩
abbrev main_v66 : Ref sig .tc := ⟨.hbm, 79, rfl⟩
abbrev main_v67 : Ref sig .tc := ⟨.hbm, 80, rfl⟩
abbrev main_c_8 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_c_9 : Ref sig .tc := ⟨.hbm, 85, rfl⟩
abbrev main_v71 : Ref sig .tc := ⟨.hbm, 86, rfl⟩
abbrev main_v72 : Ref sig .tc := ⟨.hbm, 87, rfl⟩
abbrev main_c_10 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_cst : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_cst_11 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_cst_12 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_cst_13 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_cst_14 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_cst_15 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_cst_16 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_cst_17 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_cst_18 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_cst_19 : Ref sig .tc := ⟨.hbm, 213, rfl⟩
abbrev main_v188 : Ref sig .tc := ⟨.hbm, 214, rfl⟩
abbrev main_v189 : Ref sig .tc := ⟨.hbm, 215, rfl⟩
abbrev main_v190 : Ref sig .tc := ⟨.hbm, 216, rfl⟩
abbrev main_v191 : Ref sig .tc := ⟨.hbm, 217, rfl⟩

abbrev nD : Nat := 1
abbrev τ : Topo := Topo.v7x

variable {F : FTy → Type} [FloatOps F]

class Facts₀ : Prop where
  slices_S128x3_S128x1_0_0 : S128x3.Slices ![0, 0] S128x1
  shapeCasts_S128x1_S128 : S128x1.ShapeCasts S128
  slices_S128x3_S128x1_0_1 : S128x3.Slices ![0, 1] S128x1
  slices_S128x3_S128x1_0_2 : S128x3.Slices ![0, 2] S128x1
  bcast_S128_S128x1x1_0 : S128.BroadcastsInDim S128x1x1 (![0] : Fin 1 → Fin S128x1x1.rank)
  bcast_S126_S1x126x1_1 : S126.BroadcastsInDim S1x126x1 (![1] : Fin 1 → Fin S1x126x1.rank)
  bcast_S128x1x1_S128x126x1_0_1_2 : S128x1x1.BroadcastsInDim S128x126x1 (![0, 1, 2] : Fin 3 → Fin S128x126x1.rank)
  bcast_S1x126x1_S128x126x1_0_1_2 : S1x126x1.BroadcastsInDim S128x126x1 (![0, 1, 2] : Fin 3 → Fin S128x126x1.rank)
  bcast_S126_S1x1x126_2 : S126.BroadcastsInDim S1x1x126 (![2] : Fin 1 → Fin S1x1x126.rank)
  bcast_S128x1x1_S128x1x126_0_1_2 : S128x1x1.BroadcastsInDim S128x1x126 (![0, 1, 2] : Fin 3 → Fin S128x1x126.rank)
  bcast_S1x1x126_S128x1x126_0_1_2 : S1x1x126.BroadcastsInDim S128x1x126 (![0, 1, 2] : Fin 3 → Fin S128x1x126.rank)
  bcast_S_S128x1x1 : S_.BroadcastsInDim S128x1x1 (![] : Fin 0 → Fin S128x1x1.rank)
  bcast_S_S128x126x1 : S_.BroadcastsInDim S128x126x1 (![] : Fin 0 → Fin S128x126x1.rank)
  bcast_S_S128x1x126 : S_.BroadcastsInDim S128x1x126 (![] : Fin 0 → Fin S128x1x126.rank)
  bcast_S128x1x1_S128x126x126_0_1_2 : S128x1x1.BroadcastsInDim S128x126x126 (![0, 1, 2] : Fin 3 → Fin S128x126x126.rank)
  bcast_S128x126x1_S128x126x126_0_1_2 : S128x126x1.BroadcastsInDim S128x126x126 (![0, 1, 2] : Fin 3 → Fin S128x126x126.rank)
  bcast_S128x1x126_S128x126x126_0_1_2 : S128x1x126.BroadcastsInDim S128x126x126 (![0, 1, 2] : Fin 3 → Fin S128x126x126.rank)
  bcast_S128x126x126_S128x126x126x1_0_1_2 : S128x126x126.BroadcastsInDim S128x126x126x1 (![0, 1, 2] : Fin 3 → Fin S128x126x126x1.rank)
  concatenates_S128x126x126x1_S128x126x126x1_S128x126x126x1_S128x126x126x3_d3 : Shape.Concatenates [S128x126x126x1, S128x126x126x1, S128x126x126x1] S128x126x126x3 3
  transposes_S128x16_S16x128_1_0 : S128x16.Transposes [1, 0] S16x128
  bcast_S16x128_S16x1x128x1x1_0_2 : S16x128.BroadcastsInDim S16x1x128x1x1 (![0, 2] : Fin 2 → Fin S16x1x128x1x1.rank)
  slices_S16x1x128x1x1_S1x1x128x1x1_1_0_0_0_0 : S16x1x128x1x1.Slices ![1, 0, 0, 0, 0] S1x1x128x1x1
  shapeCasts_S1x1x128x1x1_S1x128x1x1 : S1x1x128x1x1.ShapeCasts S1x128x1x1
  bcast_S1x128x1x1_S16x128x126x126_0_1_2_3 : S1x128x1x1.BroadcastsInDim S16x128x126x126 (![0, 1, 2, 3] : Fin 4 → Fin S16x128x126x126.rank)
  slices_S16x1x128x1x1_S1x1x128x1x1_2_0_0_0_0 : S16x1x128x1x1.Slices ![2, 0, 0, 0, 0] S1x1x128x1x1
  slices_S16x1x128x1x1_S1x1x128x1x1_3_0_0_0_0 : S16x1x128x1x1.Slices ![3, 0, 0, 0, 0] S1x1x128x1x1
  slices_S16x1x128x1x1_S1x1x128x1x1_4_0_0_0_0 : S16x1x128x1x1.Slices ![4, 0, 0, 0, 0] S1x1x128x1x1
  slices_S16x1x128x1x1_S1x1x128x1x1_5_0_0_0_0 : S16x1x128x1x1.Slices ![5, 0, 0, 0, 0] S1x1x128x1x1
  slices_S16x1x128x1x1_S1x1x128x1x1_6_0_0_0_0 : S16x1x128x1x1.Slices ![6, 0, 0, 0, 0] S1x1x128x1x1
  bcast_S_S16x128x126x126 : S_.BroadcastsInDim S16x128x126x126 (![] : Fin 0 → Fin S16x128x126x126.rank)
  slices_S16x1x128x1x1_S1x1x128x1x1_7_0_0_0_0 : S16x1x128x1x1.Slices ![7, 0, 0, 0, 0] S1x1x128x1x1
  slices_S16x1x128x1x1_S1x1x128x1x1_8_0_0_0_0 : S16x1x128x1x1.Slices ![8, 0, 0, 0, 0] S1x1x128x1x1
  slices_S16x1x128x1x1_S1x1x128x1x1_9_0_0_0_0 : S16x1x128x1x1.Slices ![9, 0, 0, 0, 0] S1x1x128x1x1
  slices_S16x1x128x1x1_S1x1x128x1x1_10_0_0_0_0 : S16x1x128x1x1.Slices ![10, 0, 0, 0, 0] S1x1x128x1x1
  slices_S16x1x128x1x1_S1x1x128x1x1_11_0_0_0_0 : S16x1x128x1x1.Slices ![11, 0, 0, 0, 0] S1x1x128x1x1
  slices_S16x1x128x1x1_S1x1x128x1x1_12_0_0_0_0 : S16x1x128x1x1.Slices ![12, 0, 0, 0, 0] S1x1x128x1x1
  slices_S16x1x128x1x1_S1x1x128x1x1_13_0_0_0_0 : S16x1x128x1x1.Slices ![13, 0, 0, 0, 0] S1x1x128x1x1
  slices_S16x1x128x1x1_S1x1x128x1x1_14_0_0_0_0 : S16x1x128x1x1.Slices ![14, 0, 0, 0, 0] S1x1x128x1x1
  slices_S16x1x128x1x1_S1x1x128x1x1_15_0_0_0_0 : S16x1x128x1x1.Slices ![15, 0, 0, 0, 0] S1x1x128x1x1
  gather_S16x64x128x128_S128x126x126x3_S16x128x126x126_0_123_n_n_123_3_16111_wf : GatherDims.WF S16x64x128x128 S128x126x126x3 S16x128x126x126 [0] [1, 2, 3] [] [1, 2, 3] [] 3 ![16, 1, 1, 1]

variable [Facts₀]

def gather_S16x64x128x128_S128x126x126x3_S16x128x126x126_0_123_n_n_123_3_16111 : GatherDims S16x64x128x128 S128x126x126x3 S16x128x126x126 where
  offsetDims := [0]
  collapsedSliceDims := [1, 2, 3]
  operandBatchingDims := []
  startIndicesBatchingDims := []
  startIndexMap := [1, 2, 3]
  indexVectorDim := 3
  sliceSizes := ![16, 1, 1, 1]
  wf := gather_S16x64x128x128_S128x126x126x3_S16x128x126x126_0_123_n_n_123_3_16111_wf

class Facts : Prop extends Facts₀ where

variable [Facts]
-- ==== Proof.Spec.lean ====
/-
  The mathematics of the two programs, stated once over literal shapes and extended reals.

  Inputs: an image batch X[16, 64, 128, 128], two tables of index triples PA, PB[128, 3] (row k = (h, w, c)) and a
  weight table W[128, 16]. For a table P, output channel k reads the input "tap" X[b, c_k, h_k + p, w_k + q] at output
  position (p, q) of the 126 x 126 grid of 3 x 3 windows. With a, b the two taps, the result is a weighted sum of the
  sixteen two-input logic gates relaxed to the reals (a*b, a - a*b, a, ...), the weights being row k of W.

  One program gathers the two taps directly and adds the fifteen weighted terms one after the other (`gateSum`).
  The other turns each table into a 0/1 selection table over (shift, k, channel), gets each tap as a sum over the nine
  shifts s = 3*dh + dw of a channel contraction of the selection row with the shifted window of X (`shiftSum`), and
  applies the gate sum collected into four coefficients per k (`collected`).  The two agree wherever the triples are in
  range and the floats are real numbers: the selection row of k is 1 at exactly one (shift, channel) (`shiftSum_select`),
  and the fifteen-term sum is the collected polynomial by distributivity, which holds among reals (`gateSum_eq_collected`).
-/
import Idealize.ShloMosaic.PureOps.Ideal
import Idealize.ShloMosaic.Lib.ValueIdx
import Mathlib.Algebra.BigOperators.Fin
import Mathlib.Tactic.Ring
import Mathlib.Tactic.NormNum

noncomputable section

namespace Cert.LogicConv

open Idealize.ShloMosaic Idealize.ShloMosaic.ValueIdx

abbrev SX : Shape := ⟨4, ![16, 64, 128, 128]⟩
abbrev SP : Shape := ⟨2, ![128, 3]⟩
abbrev SW : Shape := ⟨2, ![128, 16]⟩
abbrev SO : Shape := ⟨4, ![16, 128, 126, 126]⟩
/-- the selection table's shape: (shift, output channel, input channel) -/
abbrev ST : Shape := ⟨3, ![9, 128, 64]⟩
/-- a coefficient column's shape -/
abbrev SC : Shape := ⟨3, ![128, 1, 1]⟩

/-- Field `f` (0 = h, 1 = w, 2 = c) of row `k` of a table of triples, as a natural number. -/
def fld (P : IVec SP 32) (k : Fin 128) (f : Fin 3) : ℕ := (P (ix2 k f)).toNat

/-- Every triple indexes inside the array: h, w < 3 (so h + p, w + q < 128 for p, q < 126) and c < 64. -/
def InRange (P : IVec SP 32) : Prop := ∀ k : Fin 128, fld P k 0 < 3 ∧ fld P k 1 < 3 ∧ fld P k 2 < 64

/-- Every entry is a real number. -/
def Finite {s : Shape} (A : s.Idx → EReal) : Prop := ∀ i, ∃ r : ℝ, A i = (r : EReal)

/-- Where channel `k` of table `P` reads X for output position (p, q) of image `b`; out-of-range fields are held
    at the array's edge, which never happens for a table in range. -/
def tap (P : IVec SP 32) (k : Fin 128) (p q : Fin 126) (b : Fin 16) : SX.Idx :=
  ix4 b ⟨min (fld P k 2) 63, by omega⟩ ⟨min (fld P k 0 + p.val) 127, by omega⟩ ⟨min (fld P k 1 + q.val) 127, by omega⟩

/-! ## The gate sum, term by term -/

/-- The fifteen weighted gate terms added left to right; `w 0` (the constant-false gate) does not occur. -/
def gateSum (w : Fin 16 → EReal) (a b : EReal) : EReal :=
  w 1 * (a * b) + w 2 * (a - a * b) + w 3 * a + w 4 * (b - a * b) + w 5 * b
    + w 6 * (a + b - 2 * (a * b)) + w 7 * (a + b - a * b) + w 8 * (1 - (a + b - a * b))
    + w 9 * (1 - (a + b - 2 * (a * b))) + w 10 * (1 - b) + w 11 * (1 - b + a * b) + w 12 * (1 - a)
    + w 13 * (1 - a + a * b) + w 14 * (1 - a * b) + w 15 * 1

/-! ## The same sum collected by powers of a and b -/

def coefA (w : Fin 16 → EReal) : EReal := w 2 + w 3 + w 6 + w 7 - w 8 - w 9 - w 12 - w 13
def coefB (w : Fin 16 → EReal) : EReal := w 4 + w 5 + w 6 + w 7 - w 8 - w 9 - w 10 - w 11
def coefAB (w : Fin 16 → EReal) : EReal :=
  w 1 - w 2 - w 4 - 2 * w 6 - w 7 + w 8 + 2 * w 9 + w 11 + w 13 - w 14
def coefOne (w : Fin 16 → EReal) : EReal := w 8 + w 9 + w 10 + w 11 + w 12 + w 13 + w 14 + w 15

/-- ca*a + cb*b + cab*(a*b) + c1 -/
def combine (ca cb cab c1 a b : EReal) : EReal := ca * a + cb * b + cab * (a * b) + c1

def collected (w : Fin 16 → EReal) (a b : EReal) : EReal := combine (coefA w) (coefB w) (coefAB w) (coefOne w) a b

/-- Among real numbers the fifteen-term gate sum is its collected form. -/
theorem gateSum_eq_collected (w : Fin 16 → ℝ) (a b : ℝ) :
    gateSum (fun i => (w i : EReal)) (a : EReal) (b : EReal) = collected (fun i => (w i : EReal)) (a : EReal) (b : EReal) := by
  have h2 : (2 : EReal) = ((2 : ℝ) : EReal) := by norm_cast
  have h1 : (1 : EReal) = ((1 : ℝ) : EReal) := by norm_cast
  simp only [gateSum, collected, combine, coefA, coefB, coefAB, coefOne, h2, h1]
  simp only [← EReal.coe_mul, ← EReal.coe_add, ← EReal.coe_sub]
  congr 1
  ring

/-! ## A tap as a sum over shifts of channel contractions -/

/-- The contribution of shift `s` = 3*dh + dw: the selection row contracted with the window of X moved by (dh, dw). -/
def shiftTerm (o : Fin 9 → Fin 64 → EReal) (x : Fin 64 → Fin 128 → Fin 128 → EReal) (p q : Fin 126) (s : Fin 9) : EReal :=
  ∑ c : Fin 64, o s c * x c ⟨s.val / 3 + p.val, by omega⟩ ⟨s.val % 3 + q.val, by omega⟩

/-- The nine contributions added to zero, one after the other. -/
def shiftSum (o : Fin 9 → Fin 64 → EReal) (x : Fin 64 → Fin 128 → Fin 128 → EReal) (p q : Fin 126) : EReal :=
  0 + shiftTerm o x p q 0 + shiftTerm o x p q 1 + shiftTerm o x p q 2 + shiftTerm o x p q 3 + shiftTerm o x p q 4
    + shiftTerm o x p q 5 + shiftTerm o x p q 6 + shiftTerm o x p q 7 + shiftTerm o x p q 8

/-- The word whose position in [0, 576) is hot in row k of the selection table: (h*3 + w)*64 + c, in 32-bit arithmetic. -/
def hotWord (P : IVec SP 32) (k : Fin 128) : BitVec 32 := (P (ix2 k 0) * 3#32 + P (ix2 k 1)) * 64#32 + P (ix2 k 2)

/-- The selection table of `P`: entry (s, k, c) is 1 when the hot word of row k is s*64 + c, else 0. -/
def selTable (P : IVec SP 32) : ST.Idx → EReal :=
  fun i => if hotWord P (i 1) = BitVec.ofNat 32 ((i 0).val * 64 + (i 2).val) then 1 else 0

/-- The whole-array result in the selection-table form, over arbitrary tables and coefficient columns. -/
def tableForm (X : SX.Idx → EReal) (OA OB : ST.Idx → EReal) (CA CB CAB C1 : SC.Idx → EReal) : SO.Idx → EReal :=
  fun j => combine (CA (ix3 (j 1) 0 0)) (CB (ix3 (j 1) 0 0)) (CAB (ix3 (j 1) 0 0)) (C1 (ix3 (j 1) 0 0))
    (shiftSum (fun s c => OA (ix3 s (j 1) c)) (fun c r l => X (ix4 (j 0) c r l)) (j 2) (j 3))
    (shiftSum (fun s c => OB (ix3 s (j 1) c)) (fun c r l => X (ix4 (j 0) c r l)) (j 2) (j 3))

/-- THE RESULT both programs compute where the tables are in range and the floats are real: the collected gate sum
    of the two gathered taps. -/
def result (X : SX.Idx → EReal) (PA PB : IVec SP 32) (W : SW.Idx → EReal) : SO.Idx → EReal :=
  fun j => collected (fun i => W (ix2 (j 1) i)) (X (tap PA (j 1) (j 2) (j 3) (j 0))) (X (tap PB (j 1) (j 2) (j 3) (j 0)))

end Cert.LogicConv

end
-- ==== Proof.PreDecode.lean ====
/-
  The precondition read back: every entry of X and W is a real number, and both tables of triples are in range.
-/
import proofs.«431178_j6897717477609_1_alg».proof.Pre_finite_inputs
import proofs.«431178_j6897717477609_1_alg».proof.Proof.Spec
import Idealize.ShloMosaic.Lib.ReduceAll
import Idealize.ShloMosaic.Lib.StableHlo.Predicate

noncomputable section

namespace Cert.LogicConv.PreDecode

open Idealize.ShloMosaic Idealize.ShloMosaic.ValueIdx Cert.LogicConv

section Parts

open Idealize.ShloMosaic.StableHlo.Predicate
open Cert.Pre_finite_inputs Cert.Pre_finite_inputs.Facts

/-- The rank-0 shape has one index. -/
local instance : Subsingleton S_.Idx := ⟨fun a b => funext fun d => d.elim0⟩

/-! ## Floats: |x| < +∞ says x is a real number -/

/-- The word 0x7F800000 denotes +∞. -/
theorem ofBits_inf : Ideal.ofBits .f32 0x7F800000#32 = (⊤ : EReal) := by
  simp [Ideal.ofBits, Ideal.ieee]

/-- An extended real whose absolute value max x (-x) is below +∞ is a real number: +∞ and -∞ both have absolute value +∞. -/
theorem real_of_abs_lt (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

/-- all(|A| < +∞) over an array of any shape: every entry of A is a real number. -/
theorem finite_of {s : Shape} {axes : List (Fin s.rank)} (A : FVec Ideal s .f32)
    (hb : S_.BroadcastsInDim s (![] : Fin 0 → Fin s.rank)) (hr : s.ReducesTo axes S_) (hu : 0 < S_.numel)
    (h : Host.reduce IntOp.andi (cmpf .olt (Host.absf A) (broadcastInDim s ![] hb (constant S_ .f32 0x7F800000#32)))
      (constantI S_ 1 1#1) hr hu ix0 = 1#1) : Finite A := by
  intro i
  have e := Host.reduce_andi_all _ _ hr hu ix0 h i
  change Ideal.cmp .olt (max (A i) (-(A i))) (Ideal.ofBits .f32 0x7F800000#32) = 1#1 at e
  rw [ofBits_inf] at e
  exact real_of_abs_lt _ e

/-! ## Words: 0 ≤ w < n signed says w < n unsigned -/

/-- A word that is nonnegative and below a small bound n, both read signed, has unsigned value below n:
    nonnegative signed means the top bit is clear, and words with a clear top bit order as their values. -/
theorem word_lt (w n : BitVec 32) (hn : n.toNat < 2 ^ 31) (h0 : IntOp.cmpi .sge w 0#32 = 1#1)
    (h1 : IntOp.cmpi .slt w n = 1#1) : w.toNat < n.toNat := by
  have hw : w.toNat < 2 ^ 31 := by
    unfold IntOp.cmpi at h0
    rw [ofBool_eq_one_iff] at h0
    simp only [BitVec.sle, decide_eq_true_eq] at h0
    have hz : (0#32 : BitVec 32).toInt = 0 := by decide
    rw [hz, BitVec.toInt_eq_toNat_cond] at h0
    have := w.isLt
    split at h0 <;> omega
  exact (slt_iff_toNat hw hn).1 h1

variable [Facts]

/-- The slice P[:, 0:2] at (k, f) is P at (k, f). -/
theorem slice2_apply (P : IVec S128x3 32) (k : Fin 128) (f : Fin 2) :
    extractStridedSlice S128x2 ![0, 0] P slices_S128x3_S128x2_0_0 (ix2 k f) = P (ix2 k (Fin.castLE (by omega) f)) := by
  unfold extractStridedSlice
  congr 1
  funext a
  match a with
  | ⟨0, _⟩ => exact Fin.ext (Nat.zero_add _)
  | ⟨1, _⟩ => exact Fin.ext (Nat.zero_add _)

/-- The slice P[:, 2:3] at (k, 0) is P at (k, 2). -/
theorem slice1_apply (P : IVec S128x3 32) (k : Fin 128) :
    extractStridedSlice S128x1 ![0, 2] P slices_S128x3_S128x1_0_2 (ix2 k 0) = P (ix2 k 2) := by
  unfold extractStridedSlice
  congr 1
  funext a
  match a with
  | ⟨0, _⟩ => exact Fin.ext (Nat.zero_add _)
  | ⟨1, _⟩ => exact Fin.ext rfl

/-- all(P ≥ 0), all(P[:, 0:2] < 3) and all(P[:, 2:3] < 64), compared signed: every triple of P is in range. -/
theorem inRange_of (P : IVec S128x3 32)
    (h0 : Host.reduce IntOp.andi (cmpi .sge P (broadcastInDim S128x3 ![] bcast_S_S128x3 (constantI S_ 32 0#32)))
      (constantI S_ 1 1#1) reducesTo_S128x3_S_d0_1 h_S_ ix0 = 1#1)
    (h3 : Host.reduce IntOp.andi (cmpi .slt (extractStridedSlice S128x2 ![0, 0] P slices_S128x3_S128x2_0_0)
        (broadcastInDim S128x2 ![] bcast_S_S128x2 (constantI S_ 32 3#32)))
      (constantI S_ 1 1#1) reducesTo_S128x2_S_d0_1 h_S_ ix0 = 1#1)
    (h64 : Host.reduce IntOp.andi (cmpi .slt (extractStridedSlice S128x1 ![0, 2] P slices_S128x3_S128x1_0_2)
        (broadcastInDim S128x1 ![] bcast_S_S128x1 (constantI S_ 32 64#32)))
      (constantI S_ 1 1#1) reducesTo_S128x1_S_d0_1 h_S_ ix0 = 1#1) : InRange P := by
  -- the three reductions, each read at one element
  have g0 : ∀ (k : Fin 128) (f : Fin 3), IntOp.cmpi .sge (P (ix2 k f)) 0#32 = 1#1 := fun k f =>
    Host.reduce_andi_all _ _ reducesTo_S128x3_S_d0_1 h_S_ ix0 h0 (ix2 k f)
  have g3 : ∀ (k : Fin 128) (f : Fin 2), IntOp.cmpi .slt (P (ix2 k (Fin.castLE (by omega) f))) 3#32 = 1#1 := fun k f => by
    have e := Host.reduce_andi_all _ _ reducesTo_S128x2_S_d0_1 h_S_ ix0 h3 (ix2 k f)
    change IntOp.cmpi .slt (extractStridedSlice S128x2 ![0, 0] P slices_S128x3_S128x2_0_0 (ix2 k f)) 3#32 = 1#1 at e
    rwa [slice2_apply] at e
  have g64 : ∀ k : Fin 128, IntOp.cmpi .slt (P (ix2 k 2)) 64#32 = 1#1 := fun k => by
    have e := Host.reduce_andi_all _ _ reducesTo_S128x1_S_d0_1 h_S_ ix0 h64 (ix2 k 0)
    change IntOp.cmpi .slt (extractStridedSlice S128x1 ![0, 2] P slices_S128x3_S128x1_0_2 (ix2 k 0)) 64#32 = 1#1 at e
    rwa [slice1_apply] at e
  intro k
  exact ⟨word_lt _ 3#32 (by decide) (g0 k 0) (g3 k 0), word_lt _ 3#32 (by decide) (g0 k 1) (g3 k 1),
    word_lt _ 64#32 (by decide) (g0 k 2) (g64 k)⟩

end Parts

/-- The printed precondition, all ones, gives: X and W finite, both tables in range. -/
theorem decode [Cert.Pre_finite_inputs.Facts]
    (X : FVec Ideal Cert.Pre_finite_inputs.S16x64x128x128 .f32) (PA PB : IVec Cert.Pre_finite_inputs.S128x3 32)
    (W : FVec Ideal Cert.Pre_finite_inputs.S128x16 .f32)
    (h : Cert.Pre_finite_inputs.fn (F := Ideal) X PA PB W = fun _ => 1#1) :
    Finite (s := SX) X ∧ Finite (s := SW) W ∧ InRange PA ∧ InRange PB := by
  have h0 := congrFun h ValueIdx.ix0
  dsimp only [Cert.Pre_finite_inputs.fn, Cert.Pre_finite_inputs.fn_part1, Cert.Pre_finite_inputs.fn_part2] at h0
  -- the result is the conjunction of the eight reductions
  have e : ∀ x y : IVec Cert.Pre_finite_inputs.S_ 1, andi x y ix0 = 1#1 ↔ x ix0 = 1#1 ∧ y ix0 = 1#1 :=
    fun _ _ => IntOp.andi_eq_one
  simp only [e] at h0
  obtain ⟨⟨⟨hX, hW⟩, ⟨hA0, hA3⟩, hA64⟩, ⟨hB0, hB3⟩, hB64⟩ := h0
  exact ⟨finite_of X _ _ _ hX, finite_of W _ _ _ hW, inRange_of PA hA0 hA3 hA64, inRange_of PB hB0 hB3 hB64⟩

end Cert.LogicConv.PreDecode

end
-- ==== Proof.Consts.lean ====
/-
  The float literals of the two programs as the extended reals they denote: +0.0 is 0, 1.0 is 1 and 2.0 is 2
  (each word is decoded once, here).
-/
import Idealize.ShloMosaic.PureOps.Ideal
import Mathlib.Tactic.NormNum

noncomputable section

namespace Cert.LogicConv.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = 2 := by
  have h : Ideal.ofBits .f32 0x40000000#32 = ((2 : ℝ) : EReal) := by
    simp [Ideal.ofBits, Ideal.ieee, -EReal.coe_mul]; norm_num
  rw [h]; norm_cast

end Cert.LogicConv.Consts

end
-- ==== Proof.ShiftTerm.lean ====
/-
  One shift's contribution, entry by entry.

  For a [1, 64, 64] slab Wt of a selection table and the image block x0 [1, 64, 128, 128], the body forms the
  [64, 64] x [64, 16384] product of the slab with the image's channels-by-pixels matrix (into a zero accumulator), lays
  it out as [64, 128, 128] and cuts the [64, 126, 126] window at offset (dh, dw).  Entry (k, p, q) of that window is
  the contraction over the 64 channels of Wt[0, k, c] with x0[0, c, dh + p, dw + q]: pixel (dh + p, dw + q) is column
  (dh + p)*128 + (dw + q) of the matrix, and a change of float format is the identity.
-/
import proofs.«431178_j6897717477609_1_alg».proof.Proof.Gen.KernelIdeal.Skeleton
import proofs.«431178_j6897717477609_1_alg».proof.Proof.Spec
import proofs.«431178_j6897717477609_1_alg».proof.Proof.Consts
import Idealize.ShloMosaic.Lib.Pipeline.Value
import Idealize.ShloMosaic.Lib.ValueLayout
import Idealize.ShloMosaic.PureOps.Ideal.Laws

set_option maxRecDepth 16384

noncomputable section

namespace Cert.KernelIdeal.ShiftTerm

open Cert.KernelIdeal Cert.KernelIdeal.Gen Idealize.ShloMosaic
open Idealize.ShloMosaic.ValueIdx Cert.LogicConv

/-! ## The product's operand indices, axis by axis

The product contracts the slab's axis 1 with the matrix's axis 0: at output (r, col) and contraction coordinate c
the slab is read at (r, c) and the matrix at (c, col). -/

/-- The slab's row is the output's row. -/
theorem lhs_dot_0 (j : S64x16384.Idx) (c : dot_S64x64_S64x16384_S64x16384_1_0_0_1_n_n.contr.Idx) :
    ((dot_S64x64_S64x16384_S64x16384_1_0_0_1_n_n.lhsIdx j c) 0).val = (j 0).val := by
  unfold DotDims.lhsIdx
  rw [dif_neg (show ¬(0 : Fin S64x64.rank) ∈ dot_S64x64_S64x16384_S64x16384_1_0_0_1_n_n.lhsBatch by decide),
    dif_pos (show (0 : Fin S64x64.rank) ∈ dot_S64x64_S64x16384_S64x16384_1_0_0_1_n_n.lhsNonContracting by decide)]
  rfl

/-- The slab's column is the contraction coordinate. -/
theorem lhs_dot_1 (j : S64x16384.Idx) (c : dot_S64x64_S64x16384_S64x16384_1_0_0_1_n_n.contr.Idx) :
    ((dot_S64x64_S64x16384_S64x16384_1_0_0_1_n_n.lhsIdx j c) 1).val = (c ⟨0, by decide⟩).val :=
  DotDims.lhsIdx_val_of_single _ rfl j c

/-- The matrix's row is the contraction coordinate. -/
theorem rhs_dot_0 (j : S64x16384.Idx) (c : dot_S64x64_S64x16384_S64x16384_1_0_0_1_n_n.contr.Idx) :
    ((dot_S64x64_S64x16384_S64x16384_1_0_0_1_n_n.rhsIdx j c) 0).val = (c ⟨0, by decide⟩).val :=
  DotDims.rhsIdx_val_of_single _ rfl j c

/-- The matrix's column is the output's column. -/
theorem rhs_dot_1 (j : S64x16384.Idx) (c : dot_S64x64_S64x16384_S64x16384_1_0_0_1_n_n.contr.Idx) :
    ((dot_S64x64_S64x16384_S64x16384_1_0_0_1_n_n.rhsIdx j c) 1).val = (j 1).val := by
  unfold DotDims.rhsIdx
  rw [dif_neg (show ¬(1 : Fin S64x16384.rank) ∈ dot_S64x64_S64x16384_S64x16384_1_0_0_1_n_n.rhsBatch by decide),
    dif_pos (show (1 : Fin S64x16384.rank) ∈ dot_S64x64_S64x16384_S64x16384_1_0_0_1_n_n.rhsNonContracting by decide)]
  rfl

/-- Entry (k, p, q) of the window cut at (dh, dw) out of the slab's product with the image block. -/
theorem window_apply (Wt : Vec Ideal S1x64x64 .f32) (x0 : Vec Ideal S1x64x128x128 .f32)
    (off : Fin 3 → ℕ) (hs : S64x128x128.Slices off S64x126x126) (dh dw : ℕ) (hoff : off = ![0, dh, dw]) (hdh : dh < 3) (hdw : dw < 3)
    (k : Fin 64) (p q : Fin 126) :
    extractStridedSlice S64x126x126 off
        (shapeCast S64x128x128
          (matmul dot_S64x64_S64x16384_S64x16384_1_0_0_1_n_n none
            (truncf .bf16 (shapeCast S64x64 Wt shapeCasts_S1x64x64_S64x64) bitsLt_bf16_f32) (k0_pay3 x0)
            (constant S64x16384 .f32 0x00000000#32))
          shapeCasts_S64x16384_S64x128x128) hs (ix3 k p q)
      = ∑ cc : Fin 64, (Wt (ix3 0 k cc) : EReal) * x0 (ix4 0 cc ⟨dh + p.val, by omega⟩ ⟨dw + q.val, by omega⟩) := by
  subst hoff
  unfold k0_pay3
  dsimp only
  -- the window's entry (k, p, q) is the laid-out product's entry (k, dh + p, dw + q)
  rw [extractStridedSlice_apply _ _ hs (ix3 k p q) (ix3 k ⟨dh + p.val, by omega⟩ ⟨dw + q.val, by omega⟩) (fun a => by
    match a with
    | ⟨0, _⟩ => exact (Nat.zero_add _).symm
    | ⟨1, _⟩ => rfl
    | ⟨2, _⟩ => rfl)]
  -- which is row k, column (dh + p)*128 + (dw + q) of the product
  rw [shapeCast_apply _ shapeCasts_S64x16384_S64x128x128 (ix3 k ⟨dh + p.val, by omega⟩ ⟨dw + q.val, by omega⟩)
    (ix2 k ⟨(dh + p.val) * 128 + (dw + q.val), by omega⟩) (by
      rw [Shape.rowMajor_val_two, Shape.rowMajor_val_three]
      show k.val * 16384 + ((dh + p.val) * 128 + (dw + q.val)) = (k.val * 128 + (dh + p.val)) * 128 + (dw + q.val)
      omega)]
  -- into the zero accumulator the product is the sum over the contraction index, re-indexed by the channel
  refine (Ideal.matmul_constant_zero_apply dot_S64x64_S64x16384_S64x16384_1_0_0_1_n_n none _ _ _).trans ?_
  rw [← Equiv.sum_comp (contrEquiv1 dot_S64x64_S64x16384_S64x16384_1_0_0_1_n_n 64 rfl rfl).symm]
  refine Finset.sum_congr rfl fun cc _ => ?_
  -- the contraction index of channel cc has cc on its one axis
  have hc : (((contrEquiv1 dot_S64x64_S64x16384_S64x16384_1_0_0_1_n_n 64 rfl rfl).symm cc) ⟨0, by decide⟩ : ℕ) = cc.val :=
    contrEquiv1_symm_val dot_S64x64_S64x16384_S64x16384_1_0_0_1_n_n 64 rfl rfl cc
  -- the slab is read at (k, cc), the matrix at (cc, column)
  have hl : dot_S64x64_S64x16384_S64x16384_1_0_0_1_n_n.lhsIdx (ix2 k ⟨(dh + p.val) * 128 + (dw + q.val), by omega⟩)
      ((contrEquiv1 dot_S64x64_S64x16384_S64x16384_1_0_0_1_n_n 64 rfl rfl).symm cc) = ix2 k cc := by
    funext a
    match a with
    | ⟨0, _⟩ => exact Fin.ext (lhs_dot_0 _ _)
    | ⟨1, _⟩ => exact Fin.ext ((lhs_dot_1 _ _).trans hc)
  have hr : dot_S64x64_S64x16384_S64x16384_1_0_0_1_n_n.rhsIdx (ix2 k ⟨(dh + p.val) * 128 + (dw + q.val), by omega⟩)
      ((contrEquiv1 dot_S64x64_S64x16384_S64x16384_1_0_0_1_n_n 64 rfl rfl).symm cc)
        = ix2 cc ⟨(dh + p.val) * 128 + (dw + q.val), by omega⟩ := by
    funext a
    match a with
    | ⟨0, _⟩ => exact Fin.ext ((rhs_dot_0 _ _).trans hc)
    | ⟨1, _⟩ => exact Fin.ext (rhs_dot_1 _ _)
  -- a change of float format is the identity; the casts only re-lay the same entries
  rw [hl, hr, truncf_apply, truncf_apply, shapeCast_1ab_ab_apply]
  congr 1
  rw [shapeCast_apply _ shapeCasts_S64x128x128_S64x16384 (ix2 cc ⟨(dh + p.val) * 128 + (dw + q.val), by omega⟩)
    (ix3 cc ⟨dh + p.val, by omega⟩ ⟨dw + q.val, by omega⟩) (by
      rw [Shape.rowMajor_val_three, Shape.rowMajor_val_two]
      show (cc.val * 128 + (dh + p.val)) * 128 + (dw + q.val) = cc.val * 16384 + ((dh + p.val) * 128 + (dw + q.val))
      omega)]
  exact shapeCast_1abc_abc_apply x0 _ cc _ _

end Cert.KernelIdeal.ShiftTerm

end
-- ==== Proof.KerBody.lean ====
/-
  What one grid point of the kernel leaves in its output block, entry by entry.
-/
import proofs.«431178_j6897717477609_1_alg».proof.Proof.Gen.KernelIdeal.Frame
import proofs.«431178_j6897717477609_1_alg».proof.Proof.Spec
import proofs.«431178_j6897717477609_1_alg».proof.Proof.Consts
import proofs.«431178_j6897717477609_1_alg».proof.Proof.ShiftTerm
import Idealize.ShloMosaic.Lib.Pipeline.Value
import Idealize.ShloMosaic.Lib.ValueLayout
import Idealize.ShloMosaic.PureOps.Ideal.Laws

set_option maxRecDepth 16384

noncomputable section

namespace Cert.KernelIdeal.Body

open Cert.KernelIdeal Cert.KernelIdeal.Gen Idealize.ShloMosaic Idealize.ShloMosaic.TcCoe Idealize.SL.Sem
open Idealize.ShloMosaic.ValueIdx Cert.LogicConv

/-! ## Small index facts -/

theorem off3_zero : (![0, 0, 0] : Fin 3 → Nat) = fun _ => 0 := by
  funext a; match a with | ⟨0, _⟩ => rfl | ⟨1, _⟩ => rfl | ⟨2, _⟩ => rfl
theorem off4_zero : (![0, 0, 0, 0] : Fin 4 → Nat) = fun _ => 0 := by
  funext a; match a with | ⟨0, _⟩ => rfl | ⟨1, _⟩ => rfl | ⟨2, _⟩ => rfl | ⟨3, _⟩ => rfl

theorem add_right_congr {a b t : EReal} (h : a = b) : a + t = b + t := by rw [h]

/-- Slab `s` of a table, loaded as a [1, 64, 64] block, read at (0, k, cc): the table at (s, k, cc). -/
theorem slab_apply (x : Vec Ideal S9x64x64 .f32) (s : Fin 9) (so : ℕ) (hso : so = s.val)
    (inb : ∀ a, (![so, 0, 0] : Fin 3 → ℕ) a + S1x64x64.size a ≤ S9x64x64.size a) (k cc : Fin 64) :
    View.ld x (Rect.unit ![so, 0, 0] S1x64x64.size inb) (ix3 0 k cc) = x (ix3 s k cc) := by
  subst hso
  show x ((Rect.unit (s := S9x64x64) ![s.val, 0, 0] S1x64x64.size inb).emb (ix3 0 k cc)) = _
  refine congrArg x (funext fun a => Fin.ext ?_)
  rw [Rect.emb_apply]
  match a with
  | ⟨0, _⟩ => show s.val + 1 * 0 = s.val; omega
  | ⟨1, _⟩ => show 0 + 1 * k.val = k.val; omega
  | ⟨2, _⟩ => show 0 + 1 * cc.val = cc.val; omega

/-- A coefficient column broadcast over the 126 x 126 grid, read at (k, p, q): its entry at k. -/
theorem column_apply (col : FVec Ideal S64x1x1 .f32) (k : Fin 64) (p q : Fin 126) :
    broadcastTo S64x126x126 col broadcasts_S64x1x1_S64x126x126 (ix3 k p q) = col (ix3 k 0 0) :=
  broadcastTo_apply col broadcasts_S64x1x1_S64x126x126 (ix3 k p q) (ix3 k 0 0) fun a =>
    match a with
    | ⟨0, _⟩ => by show k.val = if (64 : ℕ) = 1 then 0 else k.val; simp
    | ⟨1, _⟩ => by show (0 : ℕ) = if (1 : ℕ) = 1 then 0 else p.val; simp
    | ⟨2, _⟩ => by show (0 : ℕ) = if (1 : ℕ) = 1 then 0 else q.val; simp

/-! ## The last payload: the collected gate sum -/

theorem pay2_apply (A B : Vec Ideal S64x126x126 .f32) (c3 c4 c5 c6 : Vec Ideal S64x1x1 .f32) (k : Fin 64) (p q : Fin 126) :
    k0_pay2 A B c3 c4 c5 c6 (ix4 0 k p q)
      = combine (c3 (ix3 k 0 0)) (c4 (ix3 k 0 0)) (c5 (ix3 k 0 0)) (c6 (ix3 k 0 0)) (A (ix3 k p q)) (B (ix3 k p q)) := by
  unfold k0_pay2 combine
  refine (shapeCast_apply _ shapeCasts_S64x126x126_S1x64x126x126 (ix4 0 k p q) (ix3 k p q) ?_).trans ?_
  · rw [Shape.rowMajor_val_three, Shape.rowMajor_val_four]
    show (k.val * 126 + p.val) * 126 + q.val = ((0 * 64 + k.val) * 126 + p.val) * 126 + q.val
    omega
  simp only [addf_apply, mulf_apply, shapeCast_self]
  exact congrArg₂ (· + ·) (congrArg₂ (· + ·) (congrArg₂ (· + ·)
    (congrArg (· * A (ix3 k p q)) (column_apply c3 k p q)) (congrArg (· * B (ix3 k p q)) (column_apply c4 k p q)))
    (congrArg (· * (A (ix3 k p q) * B (ix3 k p q))) (column_apply c5 k p q))) (column_apply c6 k p q)

/-! ## One shift's update of a scratch accumulator -/

/-- The scratch after one shift: the accumulator plus the window cut at `off` out of the slab's product with the image. -/
def step (x0 : Vec Ideal S1x64x128x128 .f32) (W : Vec Ideal S1x64x64 .f32) (off : Fin 3 → ℕ)
    (hs : S64x128x128.Slices off S64x126x126) (acc : Vec Ideal S64x126x126 .f32) : FVec Ideal S64x126x126 .f32 :=
  shapeCast S64x126x126
    (addf acc
      (extractStridedSlice S64x126x126 off
        (shapeCast S64x128x128
          (matmul dot_S64x64_S64x16384_S64x16384_1_0_0_1_n_n none
            (truncf .bf16 (shapeCast S64x64 W shapeCasts_S1x64x64_S64x64) bitsLt_bf16_f32) (k0_pay3 x0)
            (constant S64x16384 .f32 0x00000000#32))
          shapeCasts_S64x16384_S64x128x128) hs))
    shapeCasts_S64x126x126_S64x126x126

/-- At (k, p, q) the step adds the shift's term of the specification. -/
theorem step_apply (x : Vec Ideal S9x64x64 .f32) (x0 : Vec Ideal S1x64x128x128 .f32) (s : Fin 9) (so dh dw : ℕ)
    (hso : so = s.val) (hdh : dh = s.val / 3) (hdw : dw = s.val % 3)
    (inb : ∀ a, (![so, 0, 0] : Fin 3 → ℕ) a + S1x64x64.size a ≤ S9x64x64.size a)
    (hs : S64x128x128.Slices ![0, dh, dw] S64x126x126) (acc : Vec Ideal S64x126x126 .f32) (k : Fin 64) (p q : Fin 126) :
    step x0 (View.ld x (Rect.unit ![so, 0, 0] S1x64x64.size inb)) ![0, dh, dw] hs acc (ix3 k p q)
      = acc (ix3 k p q) + shiftTerm (fun s cc => x (ix3 s k cc)) (fun cc r l => x0 (ix4 0 cc r l)) p q s := by
  unfold step
  rw [shapeCast_self]
  refine congrArg (acc (ix3 k p q) + ·) ?_
  refine (ShiftTerm.window_apply _ x0 _ hs dh dw rfl (by omega) (by omega) k p q).trans ?_
  unfold shiftTerm
  refine Finset.sum_congr rfl fun cc _ => ?_
  rw [slab_apply x s so hso inb k cc]
  subst hdh hdw
  rfl

/-- The zeroed scratch reads 0. -/
theorem pay4_apply (j : S64x126x126.Idx) : k0_pay4 (F := Ideal) j = 0 := by
  unfold k0_pay4
  rw [shapeCast_self]
  exact Consts.ofBits_zero
theorem pay5_apply (j : S64x126x126.Idx) : k0_pay5 (F := Ideal) j = 0 := by
  unfold k0_pay5
  rw [shapeCast_self]
  exact Consts.ofBits_zero

/-- Entry (0, k, p, q) of the block the body leaves in the output's staging buffer, from the seven input blocks:
    the collected gate sum of the two shift sums, with the four coefficient columns' entries at k.
    The output block is written once, whole, with the last payload; each of the two accumulators is written whole
    ten times (the zero, then one update per shift) and every read of it returns the write just before, so the
    accumulator the last payload reads is the nine updates applied to zero, one after the other. -/
theorem out_block_apply (c : Dev nD) (i : grid0.Coords)
    (arg2 : Memref sig .tc .vmem S1x64x128x128 .f32) (harg2 : arg2.IsWhole) (arg3 : Memref sig .tc .vmem S9x64x64 .f32) (harg3 : arg3.IsWhole)
    (arg4 : Memref sig .tc .vmem S9x64x64 .f32) (harg4 : arg4.IsWhole) (arg5 : Memref sig .tc .vmem S64x1x1 .f32) (harg5 : arg5.IsWhole)
    (arg6 : Memref sig .tc .vmem S64x1x1 .f32) (harg6 : arg6.IsWhole) (arg7 : Memref sig .tc .vmem S64x1x1 .f32) (harg7 : arg7.IsWhole)
    (arg8 : Memref sig .tc .vmem S64x1x1 .f32) (harg8 : arg8.IsWhole) (arg9 : Memref sig .tc .vmem S1x64x126x126 .f32) (harg9 : arg9.IsWhole)
    (arg10 : Memref sig .tc .vmem S64x126x126 .f32) (harg10 : arg10.IsWhole) (arg11 : Memref sig .tc .vmem S64x126x126 .f32) (harg11 : arg11.IsWhole)
    (x0 : Vec Ideal S1x64x128x128 .f32) (x1 : Vec Ideal S9x64x64 .f32) (x2 : Vec Ideal S9x64x64 .f32) (x3 : Vec Ideal S64x1x1 .f32)
    (x4 : Vec Ideal S64x1x1 .f32) (x5 : Vec Ideal S64x1x1 .f32) (x6 : Vec Ideal S64x1x1 .f32)
    (k : Fin 64) (p q : Fin 126) :
    out0_A_7 (F := Ideal) c i arg2 harg2 arg3 harg3 arg4 harg4 arg5 harg5 arg6 harg6 arg7 harg7 arg8 harg8 arg9 harg9 arg10 harg10 arg11 harg11
        x0 x1 x2 x3 x4 x5 x6 (ix4 0 k p q)
      = combine (x3 (ix3 k 0 0)) (x4 (ix3 k 0 0)) (x5 (ix3 k 0 0)) (x6 (ix3 k 0 0))
          (shiftSum (fun s cc => x1 (ix3 s k cc)) (fun cc r l => x0 (ix4 0 cc r l)) p q)
          (shiftSum (fun s cc => x2 (ix3 s k cc)) (fun cc r l => x0 (ix4 0 cc r l)) p q) := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 arg11 harg11 x0 x1 x2 x3 x4 x5 x6)]
  unfold kernelRun0_A
  dsimp only
  sl_unfold_words
  rw [View.canon_unit_zero (S := S1x64x126x126) off4_zero]
  simp only [View.readCov_cons_toLoadRect, View.readAt_eq_ld, harg2.read_unread, harg3.read_unread, harg4.read_unread,
    harg5.read_unread, harg6.read_unread, harg7.read_unread, harg8.read_unread,
    View.ld_unit_zero (S := S1x64x128x128) off4_zero, View.ld_unit_zero (S := S64x1x1) off3_zero]
  refine (pay2_apply _ _ x3 x4 x5 x6 k p q).trans ?_
  unfold shiftSum
  refine congrArg₂ (combine _ _ _ _) ?_ ?_
  · refine (step_apply x1 x0 8 8 2 2 rfl rfl rfl inb_S9x64x64_S1x64x64_8_0_0 slices_S64x128x128_o0_2_2_S64x126x126 _ k p q).trans (add_right_congr ?_)
    refine (step_apply x1 x0 7 7 2 1 rfl rfl rfl inb_S9x64x64_S1x64x64_7_0_0 slices_S64x128x128_o0_2_1_S64x126x126 _ k p q).trans (add_right_congr ?_)
    refine (step_apply x1 x0 6 6 2 0 rfl rfl rfl inb_S9x64x64_S1x64x64_6_0_0 slices_S64x128x128_o0_2_0_S64x126x126 _ k p q).trans (add_right_congr ?_)
    refine (step_apply x1 x0 5 5 1 2 rfl rfl rfl inb_S9x64x64_S1x64x64_5_0_0 slices_S64x128x128_o0_1_2_S64x126x126 _ k p q).trans (add_right_congr ?_)
    refine (step_apply x1 x0 4 4 1 1 rfl rfl rfl inb_S9x64x64_S1x64x64_4_0_0 slices_S64x128x128_o0_1_1_S64x126x126 _ k p q).trans (add_right_congr ?_)
    refine (step_apply x1 x0 3 3 1 0 rfl rfl rfl inb_S9x64x64_S1x64x64_3_0_0 slices_S64x128x128_o0_1_0_S64x126x126 _ k p q).trans (add_right_congr ?_)
    refine (step_apply x1 x0 2 2 0 2 rfl rfl rfl inb_S9x64x64_S1x64x64_2_0_0 slices_S64x128x128_o0_0_2_S64x126x126 _ k p q).trans (add_right_congr ?_)
    refine (step_apply x1 x0 1 1 0 1 rfl rfl rfl inb_S9x64x64_S1x64x64_1_0_0 slices_S64x128x128_o0_0_1_S64x126x126 _ k p q).trans (add_right_congr ?_)
    refine (step_apply x1 x0 0 0 0 0 rfl rfl rfl inb_S9x64x64_S1x64x64_0_0_0 slices_S64x128x128_o0_0_0_S64x126x126 _ k p q).trans (add_right_congr ?_)
    exact pay4_apply _
  · refine (step_apply x2 x0 8 8 2 2 rfl rfl rfl inb_S9x64x64_S1x64x64_8_0_0 slices_S64x128x128_o0_2_2_S64x126x126 _ k p q).trans (add_right_congr ?_)
    refine (step_apply x2 x0 7 7 2 1 rfl rfl rfl inb_S9x64x64_S1x64x64_7_0_0 slices_S64x128x128_o0_2_1_S64x126x126 _ k p q).trans (add_right_congr ?_)
    refine (step_apply x2 x0 6 6 2 0 rfl rfl rfl inb_S9x64x64_S1x64x64_6_0_0 slices_S64x128x128_o0_2_0_S64x126x126 _ k p q).trans (add_right_congr ?_)
    refine (step_apply x2 x0 5 5 1 2 rfl rfl rfl inb_S9x64x64_S1x64x64_5_0_0 slices_S64x128x128_o0_1_2_S64x126x126 _ k p q).trans (add_right_congr ?_)
    refine (step_apply x2 x0 4 4 1 1 rfl rfl rfl inb_S9x64x64_S1x64x64_4_0_0 slices_S64x128x128_o0_1_1_S64x126x126 _ k p q).trans (add_right_congr ?_)
    refine (step_apply x2 x0 3 3 1 0 rfl rfl rfl inb_S9x64x64_S1x64x64_3_0_0 slices_S64x128x128_o0_1_0_S64x126x126 _ k p q).trans (add_right_congr ?_)
    refine (step_apply x2 x0 2 2 0 2 rfl rfl rfl inb_S9x64x64_S1x64x64_2_0_0 slices_S64x128x128_o0_0_2_S64x126x126 _ k p q).trans (add_right_congr ?_)
    refine (step_apply x2 x0 1 1 0 1 rfl rfl rfl inb_S9x64x64_S1x64x64_1_0_0 slices_S64x128x128_o0_0_1_S64x126x126 _ k p q).trans (add_right_congr ?_)
    refine (step_apply x2 x0 0 0 0 0 rfl rfl rfl inb_S9x64x64_S1x64x64_0_0_0 slices_S64x128x128_o0_0_0_S64x126x126 _ k p q).trans (add_right_congr ?_)
    exact pay5_apply _

end Cert.KernelIdeal.Body

end
-- ==== Proof.KerArray.lean ====
/-
  From the blocks to the whole array.

  The grid is 16 x 2: point (b, kh) takes image b of X (window 0: block (b, 0, 0, 0) of size [1, 64, 128, 128]), the
  half kh of each selection table (windows 1, 2: block (0, kh, 0) of size [9, 64, 64]) and of each coefficient column
  (windows 3 to 6: block (kh, 0, 0) of size [64, 1, 1]), and writes block (b, kh, 0, 0), of size [1, 64, 126, 126], of
  the result. Entry (0, k, p, q) of what it writes is the table form's entry (b, 64*kh + k, p, q): every input block
  entry it reads is the array's entry at the block's offset. The 32 blocks tile the result array, so after the run the
  array is the table form of the arrays the region was entered with.
-/
import proofs.«431178_j6897717477609_1_alg».proof.Proof.Gen.KernelIdeal.Frame
import proofs.«431178_j6897717477609_1_alg».proof.Proof.Gen.KernelIdeal.Value
import proofs.«431178_j6897717477609_1_alg».proof.Proof.Spec
import proofs.«431178_j6897717477609_1_alg».proof.Proof.KerBody
import Idealize.ShloMosaic.Lib.Pipeline.Value

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.LogicConv

variable (m : (ℓ : Loc nD τ sig) → Buf (Elt Ideal) ℓ) (ρ : Dev nD → PrngReg)

/-- The table form of the arrays the region is entered with. -/
abbrev entered (c : Dev nD) : S16x128x126x126.Idx → EReal :=
  tableForm (V m c main_arg0) (V m c main_v14) (V m c main_v29) (V m c main_v53) (V m c main_v77) (V m c main_v111) (V m c main_v135)

/-! ## The index maps, decided over the 32 grid points -/

theorem idx_out : ∀ t : Fin cfg0.N, win0_7.index t (0 : Fin 4) ≤ 15 ∧ win0_7.index t (1 : Fin 4) ≤ 1
    ∧ win0_7.index t (2 : Fin 4) = 0 ∧ win0_7.index t (3 : Fin 4) = 0 :=
  (by decide +kernel : ∀ t : Fin grid0.N, _)

theorem idx_onto : ∀ (b : Fin 16) (kh : Fin 2), ∃ t : Fin cfg0.N, win0_7.index t = ![b.val, kh.val, 0, 0] :=
  (by decide +kernel : ∀ (b : Fin 16) (kh : Fin 2), ∃ t : Fin grid0.N, win0_7.index t = ![b.val, kh.val, 0, 0])

theorem idx_image : ∀ t : Fin cfg0.N, win0_0.index t (0 : Fin 4) = win0_7.index t (0 : Fin 4) ∧ win0_0.index t (1 : Fin 4) = 0
    ∧ win0_0.index t (2 : Fin 4) = 0 ∧ win0_0.index t (3 : Fin 4) = 0 :=
  (by decide +kernel : ∀ t : Fin grid0.N, _)

theorem idx_tableA : ∀ t : Fin cfg0.N, win0_1.index t (0 : Fin 3) = 0 ∧ win0_1.index t (1 : Fin 3) = win0_7.index t (1 : Fin 4)
    ∧ win0_1.index t (2 : Fin 3) = 0 :=
  (by decide +kernel : ∀ t : Fin grid0.N, _)

theorem idx_tableB : ∀ t : Fin cfg0.N, win0_2.index t (0 : Fin 3) = 0 ∧ win0_2.index t (1 : Fin 3) = win0_7.index t (1 : Fin 4)
    ∧ win0_2.index t (2 : Fin 3) = 0 :=
  (by decide +kernel : ∀ t : Fin grid0.N, _)

theorem idx_col3 : ∀ t : Fin cfg0.N, win0_3.index t (0 : Fin 3) = win0_7.index t (1 : Fin 4) ∧ win0_3.index t (1 : Fin 3) = 0
    ∧ win0_3.index t (2 : Fin 3) = 0 :=
  (by decide +kernel : ∀ t : Fin grid0.N, _)
theorem idx_col4 : ∀ t : Fin cfg0.N, win0_4.index t (0 : Fin 3) = win0_7.index t (1 : Fin 4) ∧ win0_4.index t (1 : Fin 3) = 0
    ∧ win0_4.index t (2 : Fin 3) = 0 :=
  (by decide +kernel : ∀ t : Fin grid0.N, _)
theorem idx_col5 : ∀ t : Fin cfg0.N, win0_5.index t (0 : Fin 3) = win0_7.index t (1 : Fin 4) ∧ win0_5.index t (1 : Fin 3) = 0
    ∧ win0_5.index t (2 : Fin 3) = 0 :=
  (by decide +kernel : ∀ t : Fin grid0.N, _)
theorem idx_col6 : ∀ t : Fin cfg0.N, win0_6.index t (0 : Fin 3) = win0_7.index t (1 : Fin 4) ∧ win0_6.index t (1 : Fin 3) = 0
    ∧ win0_6.index t (2 : Fin 3) = 0 :=
  (by decide +kernel : ∀ t : Fin grid0.N, _)

/-! ## Each input block's entry is the array's entry at the block's offset -/

/-- Image block: entry (u, cc, r, l) is X[b, cc, r, l], b the output block's first index. -/
theorem image_apply (c : Dev nD) (t : Fin cfg0.N) (y : S1x64x128x128.Idx) (k : S16x64x128x128.Idx)
    (h0 : (k 0).val = win0_7.index t (0 : Fin 4)) (h1 : (k 1).val = (y 1).val) (h2 : (k 2).val = (y 2).val) (h3 : (k 3).val = (y 3).val) :
    (iblk m c 0 t : Vec Ideal S1x64x128x128 .f32) y = (V m c main_arg0 : S16x64x128x128.Idx → EReal) k := by
  obtain ⟨e0, e1, e2, e3⟩ := idx_image t
  unfold iblk
  rw [View.read_apply]
  show V m c main_arg0 _ = V m c main_arg0 _
  congr 1
  funext a
  apply Fin.ext
  have hy0 : (y 0).val < 1 := (y 0).isLt
  match a with
  | ⟨0, _⟩ => show win0_0.index t (0 : Fin 4) * 1 + 1 * (y 0).val = (k 0).val; omega
  | ⟨1, _⟩ => show win0_0.index t (1 : Fin 4) * 64 + 1 * (y 1).val = (k 1).val; omega
  | ⟨2, _⟩ => show win0_0.index t (2 : Fin 4) * 128 + 1 * (y 2).val = (k 2).val; omega
  | ⟨3, _⟩ => show win0_0.index t (3 : Fin 4) * 128 + 1 * (y 3).val = (k 3).val; omega

/-- Selection-table blocks: entry (s, kk, cc) is the table's entry (s, 64*kh + kk, cc). -/
theorem tableA_apply (c : Dev nD) (t : Fin cfg0.N) (y : S9x64x64.Idx) (k : S9x128x64.Idx)
    (h0 : (k 0).val = (y 0).val) (h1 : (k 1).val = win0_7.index t (1 : Fin 4) * 64 + (y 1).val) (h2 : (k 2).val = (y 2).val) :
    (iblk m c 1 t : Vec Ideal S9x64x64 .f32) y = (V m c main_v14 : S9x128x64.Idx → EReal) k := by
  obtain ⟨e0, e1, e2⟩ := idx_tableA t
  unfold iblk
  rw [View.read_apply]
  show V m c main_v14 _ = V m c main_v14 _
  congr 1
  funext a
  apply Fin.ext
  match a with
  | ⟨0, _⟩ => show win0_1.index t (0 : Fin 3) * 9 + 1 * (y 0).val = (k 0).val; omega
  | ⟨1, _⟩ => show win0_1.index t (1 : Fin 3) * 64 + 1 * (y 1).val = (k 1).val; omega
  | ⟨2, _⟩ => show win0_1.index t (2 : Fin 3) * 64 + 1 * (y 2).val = (k 2).val; omega

theorem tableB_apply (c : Dev nD) (t : Fin cfg0.N) (y : S9x64x64.Idx) (k : S9x128x64.Idx)
    (h0 : (k 0).val = (y 0).val) (h1 : (k 1).val = win0_7.index t (1 : Fin 4) * 64 + (y 1).val) (h2 : (k 2).val = (y 2).val) :
    (iblk m c 2 t : Vec Ideal S9x64x64 .f32) y = (V m c main_v29 : S9x128x64.Idx → EReal) k := by
  obtain ⟨e0, e1, e2⟩ := idx_tableB t
  unfold iblk
  rw [View.read_apply]
  show V m c main_v29 _ = V m c main_v29 _
  congr 1
  funext a
  apply Fin.ext
  match a with
  | ⟨0, _⟩ => show win0_2.index t (0 : Fin 3) * 9 + 1 * (y 0).val = (k 0).val; omega
  | ⟨1, _⟩ => show win0_2.index t (1 : Fin 3) * 64 + 1 * (y 1).val = (k 1).val; omega
  | ⟨2, _⟩ => show win0_2.index t (2 : Fin 3) * 64 + 1 * (y 2).val = (k 2).val; omega

/-- Coefficient-column blocks: entry (kk, 0, 0) is the column's entry (64*kh + kk, 0, 0). -/
theorem col3_apply (c : Dev nD) (t : Fin cfg0.N) (y : S64x1x1.Idx) (k : S128x1x1.Idx)
    (h0 : (k 0).val = win0_7.index t (1 : Fin 4) * 64 + (y 0).val) :
    (iblk m c 3 t : Vec Ideal S64x1x1 .f32) y = (V m c main_v53 : S128x1x1.Idx → EReal) k := by
  obtain ⟨e0, e1, e2⟩ := idx_col3 t
  unfold iblk
  rw [View.read_apply]
  show V m c main_v53 _ = V m c main_v53 _
  congr 1
  funext a
  apply Fin.ext
  have hy1 : (y 1).val < 1 := (y 1).isLt
  have hy2 : (y 2).val < 1 := (y 2).isLt
  have hk1 : (k 1).val < 1 := (k 1).isLt
  have hk2 : (k 2).val < 1 := (k 2).isLt
  match a with
  | ⟨0, _⟩ => show win0_3.index t (0 : Fin 3) * 64 + 1 * (y 0).val = (k 0).val; omega
  | ⟨1, _⟩ => show win0_3.index t (1 : Fin 3) * 1 + 1 * (y 1).val = (k 1).val; omega
  | ⟨2, _⟩ => show win0_3.index t (2 : Fin 3) * 1 + 1 * (y 2).val = (k 2).val; omega

theorem col4_apply (c : Dev nD) (t : Fin cfg0.N) (y : S64x1x1.Idx) (k : S128x1x1.Idx)
    (h0 : (k 0).val = win0_7.index t (1 : Fin 4) * 64 + (y 0).val) :
    (iblk m c 4 t : Vec Ideal S64x1x1 .f32) y = (V m c main_v77 : S128x1x1.Idx → EReal) k := by
  obtain ⟨e0, e1, e2⟩ := idx_col4 t
  unfold iblk
  rw [View.read_apply]
  show V m c main_v77 _ = V m c main_v77 _
  congr 1
  funext a
  apply Fin.ext
  have hy1 : (y 1).val < 1 := (y 1).isLt
  have hy2 : (y 2).val < 1 := (y 2).isLt
  have hk1 : (k 1).val < 1 := (k 1).isLt
  have hk2 : (k 2).val < 1 := (k 2).isLt
  match a with
  | ⟨0, _⟩ => show win0_4.index t (0 : Fin 3) * 64 + 1 * (y 0).val = (k 0).val; omega
  | ⟨1, _⟩ => show win0_4.index t (1 : Fin 3) * 1 + 1 * (y 1).val = (k 1).val; omega
  | ⟨2, _⟩ => show win0_4.index t (2 : Fin 3) * 1 + 1 * (y 2).val = (k 2).val; omega

theorem col5_apply (c : Dev nD) (t : Fin cfg0.N) (y : S64x1x1.Idx) (k : S128x1x1.Idx)
    (h0 : (k 0).val = win0_7.index t (1 : Fin 4) * 64 + (y 0).val) :
    (iblk m c 5 t : Vec Ideal S64x1x1 .f32) y = (V m c main_v111 : S128x1x1.Idx → EReal) k := by
  obtain ⟨e0, e1, e2⟩ := idx_col5 t
  unfold iblk
  rw [View.read_apply]
  show V m c main_v111 _ = V m c main_v111 _
  congr 1
  funext a
  apply Fin.ext
  have hy1 : (y 1).val < 1 := (y 1).isLt
  have hy2 : (y 2).val < 1 := (y 2).isLt
  have hk1 : (k 1).val < 1 := (k 1).isLt
  have hk2 : (k 2).val < 1 := (k 2).isLt
  match a with
  | ⟨0, _⟩ => show win0_5.index t (0 : Fin 3) * 64 + 1 * (y 0).val = (k 0).val; omega
  | ⟨1, _⟩ => show win0_5.index t (1 : Fin 3) * 1 + 1 * (y 1).val = (k 1).val; omega
  | ⟨2, _⟩ => show win0_5.index t (2 : Fin 3) * 1 + 1 * (y 2).val = (k 2).val; omega

theorem col6_apply (c : Dev nD) (t : Fin cfg0.N) (y : S64x1x1.Idx) (k : S128x1x1.Idx)
    (h0 : (k 0).val = win0_7.index t (1 : Fin 4) * 64 + (y 0).val) :
    (iblk m c 6 t : Vec Ideal S64x1x1 .f32) y = (V m c main_v135 : S128x1x1.Idx → EReal) k := by
  obtain ⟨e0, e1, e2⟩ := idx_col6 t
  unfold iblk
  rw [View.read_apply]
  show V m c main_v135 _ = V m c main_v135 _
  congr 1
  funext a
  apply Fin.ext
  have hy1 : (y 1).val < 1 := (y 1).isLt
  have hy2 : (y 2).val < 1 := (y 2).isLt
  have hk1 : (k 1).val < 1 := (k 1).isLt
  have hk2 : (k 2).val < 1 := (k 2).isLt
  match a with
  | ⟨0, _⟩ => show win0_6.index t (0 : Fin 3) * 64 + 1 * (y 0).val = (k 0).val; omega
  | ⟨1, _⟩ => show win0_6.index t (1 : Fin 3) * 1 + 1 * (y 1).val = (k 1).val; omega
  | ⟨2, _⟩ => show win0_6.index t (2 : Fin 3) * 1 + 1 * (y 2).val = (k 2).val; omega

/-! ## What a point writes back, the cover, and the array after the run -/

/-- What point t writes back is block t of the table form of the arrays the region was entered with. -/
theorem flushed_eq (c : Dev nD) (t : Fin cfg0.N) :
    (dats m 0 c).flushed 7 t = ((cfg0.win 7).blk t).view.read (Elt Ideal) (entered m c) := by
  rw [flushed7_A]
  obtain ⟨o0, o1, o2, o3⟩ := idx_out t
  funext y
  rw [View.read_apply]
  obtain ⟨u, k, p, q, rfl⟩ : ∃ (u : Fin 1) (k : Fin 64) (p q : Fin 126), y = ix4 u k p q :=
    ⟨y 0, y 1, y 2, y 3, eq_ix4 y⟩
  obtain rfl : u = 0 := Subsingleton.elim _ _
  show out0_A_7 (F := Ideal) c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) scM0_1
      (Memref.isWhole_whole _) (iblk m c 0 t) (iblk m c 1 t) (iblk m c 2 t) (iblk m c 3 t) (iblk m c 4 t) (iblk m c 5 t) (iblk m c 6 t)
      (ix4 0 k p q) = entered m c (((cfg0.win 7).blk t).view.emb (ix4 0 k p q))
  refine (Body.out_block_apply c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) scM0_0 (Memref.isWhole_whole _) scM0_1
      (Memref.isWhole_whole _) (iblk m c 0 t) (iblk m c 1 t) (iblk m c 2 t) (iblk m c 3 t) (iblk m c 4 t) (iblk m c 5 t) (iblk m c 6 t)
      k p q).trans ?_
  -- the coordinates of the array index the block's entry (0, k, p, q) lands on
  set j : S16x128x126x126.Idx := ((cfg0.win 7).blk t).view.emb (ix4 0 k p q) with hj
  have j0 : (j 0).val = win0_7.index t (0 : Fin 4) := by
    show win0_7.index t (0 : Fin 4) * 1 + 1 * 0 = _; omega
  have j1 : (j 1).val = win0_7.index t (1 : Fin 4) * 64 + k.val := by
    show win0_7.index t (1 : Fin 4) * 64 + 1 * k.val = _; omega
  have j2 : j 2 = p := Fin.ext (by show win0_7.index t (2 : Fin 4) * 126 + 1 * p.val = _; omega)
  have j3 : j 3 = q := Fin.ext (by show win0_7.index t (3 : Fin 4) * 126 + 1 * q.val = _; omega)
  show _ = tableForm (V m c main_arg0) (V m c main_v14) (V m c main_v29) (V m c main_v53) (V m c main_v77) (V m c main_v111)
    (V m c main_v135) j
  unfold tableForm
  rw [j2, j3]
  have hx : (fun cc r l => (iblk m c 0 t : Vec Ideal S1x64x128x128 .f32) (ix4 0 cc r l))
      = fun cc r l => (V m c main_arg0 : S16x64x128x128.Idx → EReal) (ix4 (j 0) cc r l) :=
    funext fun cc => funext fun r => funext fun l => image_apply m c t _ _ j0 rfl rfl rfl
  have hta : (fun s cc => (iblk m c 1 t : Vec Ideal S9x64x64 .f32) (ix3 s k cc))
      = fun s cc => (V m c main_v14 : S9x128x64.Idx → EReal) (ix3 s (j 1) cc) :=
    funext fun s => funext fun cc => tableA_apply m c t _ _ rfl j1 rfl
  have htb : (fun s cc => (iblk m c 2 t : Vec Ideal S9x64x64 .f32) (ix3 s k cc))
      = fun s cc => (V m c main_v29 : S9x128x64.Idx → EReal) (ix3 s (j 1) cc) :=
    funext fun s => funext fun cc => tableB_apply m c t _ _ rfl j1 rfl
  rw [hx, hta, htb, col3_apply m c t (ix3 k 0 0) (ix3 (j 1) 0 0) j1, col4_apply m c t (ix3 k 0 0) (ix3 (j 1) 0 0) j1,
    col5_apply m c t (ix3 k 0 0) (ix3 (j 1) 0 0) j1, col6_apply m c t (ix3 k 0 0) (ix3 (j 1) 0 0) j1]

/-- An index of the result array is in point t's block iff each coordinate is in the block's range on its axis. -/
theorem mem_blk (t : Fin cfg0.N) (i : S16x128x126x126.Idx) :
    i ∈ ((cfg0.win 7).blk t).view.set ↔ ∀ a : Fin 4, win0_7.index t a * S1x64x126x126.size a ≤ (i a).val
      ∧ (i a).val < win0_7.index t a * S1x64x126x126.size a + S1x64x126x126.size a := by
  show i ∈ ((View.whole main_v136).slice (win0_7.rect t)).set ↔ _
  rw [View.set_slice_whole, Rect.mem_set_unit]
  exact Iff.rfl

/-- Every index of the result array is in the block of the point (b, kh) with b its image and kh the half of its channel. -/
theorem covered (i : S16x128x126x126.Idx) : ∃ t : Fin cfg0.N, (cfg0.win 7).flush t = true ∧ i ∈ ((cfg0.win 7).blk t).view.set := by
  have hi0 : (i 0).val < 16 := (i 0).isLt
  have hi1 : (i 1).val < 128 := (i 1).isLt
  have hi2 : (i 2).val < 126 := (i 2).isLt
  have hi3 : (i 3).val < 126 := (i 3).isLt
  obtain ⟨t, ht⟩ := idx_onto ⟨(i 0).val, hi0⟩ ⟨(i 1).val / 64, by omega⟩
  have q0 : win0_7.index t (0 : Fin 4) = (i 0).val := congrFun ht 0
  have q1 : win0_7.index t (1 : Fin 4) = (i 1).val / 64 := congrFun ht 1
  have q2 : win0_7.index t (2 : Fin 4) = 0 := congrFun ht 2
  have q3 : win0_7.index t (3 : Fin 4) = 0 := congrFun ht 3
  refine ⟨t, flush0_7 t, ?_⟩
  rw [mem_blk]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 64 ≤ (i 1).val ∧ (i 1).val < win0_7.index t (1 : Fin 4) * 64 + 64; omega
  | ⟨2, _⟩ => show win0_7.index t (2 : Fin 4) * 126 ≤ (i 2).val ∧ (i 2).val < win0_7.index t (2 : Fin 4) * 126 + 126; omega
  | ⟨3, _⟩ => show win0_7.index t (3 : Fin 4) * 126 ≤ (i 3).val ∧ (i 3).val < win0_7.index t (3 : Fin 4) * 126 + 126; omega

/-- After the run the result array is the table form of the arrays the region was entered with. -/
theorem final (c : Dev nD) : (dats m 0 c).arrAt 7 cfg0.N = entered m c :=
  (dats m 0 c).arrAt_eq_of_cover 7 (entered m c) (fun t _ => flushed_eq m c t) covered

/-- The kernel's run with its result array named. -/
theorem run : θ_run defs (onTc (τ := τ) (main (F := Ideal))) ⟨m, fun _ => 0, ρ⟩ fun r => ∀ c : Dev nD,
      r.2.mem ((c : Thread nD τ).loc main_v136) = entered m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.ArrayValue

end
-- ==== Proof.KerHostSel.lean ====
/-
  The two selection tables the host operations in front of the kernel build from the tables of triples.
-/
import proofs.«431178_j6897717477609_1_alg».proof.Proof.Gen.KernelIdeal.Frame
import proofs.«431178_j6897717477609_1_alg».proof.Proof.Spec
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.HostStage

open Cert.KernelIdeal Cert.KernelIdeal.Gen Idealize.ShloMosaic Idealize.ShloMosaic.TcCoe Idealize.SL.Sem
open Idealize.ShloMosaic.ValueIdx Cert.LogicConv

variable (m : (ℓ : Loc nD τ sig) → Buf (Elt Ideal) ℓ)

/-! ## The host's construction, as one term over a table of triples -/

/-- The hot word of every row: (h*3 + w)*64 + c over the three columns of the table of triples, in 32-bit arithmetic. -/
def rowWords (P : IVec S128x3 32) : IVec S128 32 :=
  addi (muli (addi (muli (shapeCast S128 (extractStridedSlice S128x1 ![0, 0] P slices_S128x3_S128x1_0_0) shapeCasts_S128x1_S128)
        (broadcastInDim S128 ![] bcast_S_S128 (constantI S_ 32 3#32)))
      (shapeCast S128 (extractStridedSlice S128x1 ![0, 1] P slices_S128x3_S128x1_0_1) shapeCasts_S128x1_S128))
    (broadcastInDim S128 ![] bcast_S_S128 (constantI S_ 32 64#32)))
    (shapeCast S128 (extractStridedSlice S128x1 ![0, 2] P slices_S128x3_S128x1_0_2) shapeCasts_S128x1_S128)

/-- The [128, 576] table of 0/1: entry (k, j) is 1 when row k's word is j. -/
def flatTable (wd : IVec S128 32) : FVec Ideal S128x576 .f32 :=
  uitofp .f32 (cmpi .eq (broadcastInDim S128x576 ![0, 1] bcast_S128x1_S128x576_0_1 (broadcastInDim S128x1 ![0] bcast_S128_S128x1_0 wd))
    (broadcastInDim S128x576 ![0, 1] bcast_S1x576_S128x576_0_1 (iotaInDim S1x576 32 1)))

/-- The table laid out as (shift, row, channel). -/
def laidOut (T : FVec Ideal S128x576 .f32) : FVec Ideal S9x128x64 .f32 :=
  transpose S9x128x64 [1, 0, 2] (shapeCast S128x9x64 T shapeCasts_S128x576_S128x9x64) transposes_S128x9x64_S9x128x64_1_0_2

/-! ## What the host operations leave in the two table operands

Of the host operations in front of the kernel, those that reach the first table operand are: the three columns of the
first table of triples, the row words, their comparison with the positions 0 … 575, and the layout as (shift, row, channel).
The second table operand is built the same way from the second table of triples. -/

set_option maxHeartbeats 4000000 in
/-- The first table operand is the laid-out flat table of the first table's row words. -/
theorem V_v14_term (c : Dev nD) :
    (V m c main_v14 : S9x128x64.Idx → EReal) = laidOut (flatTable (rowWords (m ((c : Thread nD τ).loc main_arg1)))) := by
  show StableHlo.after (List.flatten [hostOps0, hostOps0_1, hostOps0_2, hostOps0_3, hostOps0_4]) (fun b => m (c, b)) (Proc.devRef .tc main_v14) = _
  simp only [List.flatten_cons, List.flatten_nil, List.append_nil]
  rw [StableHlo.after_append, StableHlo.after_append, StableHlo.after_append, StableHlo.after_append]
  after_results_simp
  simp only [StableHlo.TRef.ofBuf, StableHlo.TRef.toBuf, cast_eq]
  rfl

set_option maxHeartbeats 4000000 in
/-- The second table operand is the laid-out flat table of the second table's row words. -/
theorem V_v29_term (c : Dev nD) :
    (V m c main_v29 : S9x128x64.Idx → EReal) = laidOut (flatTable (rowWords (m ((c : Thread nD τ).loc main_arg2)))) := by
  show StableHlo.after (List.flatten [hostOps0, hostOps0_1, hostOps0_2, hostOps0_3, hostOps0_4]) (fun b => m (c, b)) (Proc.devRef .tc main_v29) = _
  simp only [List.flatten_cons, List.flatten_nil, List.append_nil]
  rw [StableHlo.after_append, StableHlo.after_append, StableHlo.after_append, StableHlo.after_append]
  after_results_simp
  simp only [StableHlo.TRef.ofBuf, StableHlo.TRef.toBuf, cast_eq]
  rfl

/-! ## The table read at an index -/

/-- Column o of the table of triples, as a vector, at row k. -/
theorem col_apply (P : IVec S128x3 32) (o : ℕ) (ho : o < 3) (hsl : S128x3.Slices ![0, o] S128x1) (k : Fin 128) :
    shapeCast S128 (extractStridedSlice S128x1 ![0, o] P hsl) shapeCasts_S128x1_S128 (ix1 k) = P (ix2 k ⟨o, ho⟩) := by
  rw [shapeCast_apply _ shapeCasts_S128x1_S128 (ix1 k) (ix2 k (0 : Fin 1)) (by
    rw [Shape.rowMajor_val_two, Shape.rowMajor_val_one]
    show k.val * 1 + 0 = k.val
    omega)]
  exact extractStridedSlice_apply _ _ hsl _ _ fun a => by
    match a with
    | ⟨0, _⟩ => exact (Nat.zero_add _).symm
    | ⟨1, _⟩ => rfl

/-- Row k's word is the hot word of row k. -/
theorem rowWords_apply (P : IVec S128x3 32) (k : Fin 128) : rowWords P (ix1 k) = hotWord P k := by
  have e0 := col_apply P 0 (by omega) slices_S128x3_S128x1_0_0 k
  have e1 := col_apply P 1 (by omega) slices_S128x3_S128x1_0_1 k
  have e2 := col_apply P 2 (by omega) slices_S128x3_S128x1_0_2 k
  show IntOp.addi (IntOp.muli (IntOp.addi (IntOp.muli
      (shapeCast S128 (extractStridedSlice S128x1 ![0, 0] P slices_S128x3_S128x1_0_0) shapeCasts_S128x1_S128 (ix1 k)) 3#32)
      (shapeCast S128 (extractStridedSlice S128x1 ![0, 1] P slices_S128x3_S128x1_0_1) shapeCasts_S128x1_S128 (ix1 k))) 64#32)
      (shapeCast S128 (extractStridedSlice S128x1 ![0, 2] P slices_S128x3_S128x1_0_2) shapeCasts_S128x1_S128 (ix1 k)) = _
  rw [e0, e1, e2]
  rfl

/-- Entry (k, j) of the flat table: 1 when row k's word is j, else 0. -/
theorem flatTable_apply (wd : IVec S128 32) (k : Fin 128) (j : Fin 576) :
    flatTable wd (ix2 k j) = if wd (ix1 k) = BitVec.ofNat 32 j.val then (1 : EReal) else 0 := by
  have ea : broadcastInDim S128x576 ![0, 1] bcast_S128x1_S128x576_0_1 (broadcastInDim S128x1 ![0] bcast_S128_S128x1_0 wd) (ix2 k j)
      = wd (ix1 k) := by
    rw [broadcastInDim_apply _ bcast_S128x1_S128x576_0_1 _ (ix2 k j) (ix2 k (0 : Fin 1)) (fun a => by
      match a with
      | ⟨0, _⟩ => rfl
      | ⟨1, _⟩ => rfl)]
    exact broadcastInDim_apply _ bcast_S128_S128x1_0 _ _ _ (fun a => by
      match a with
      | ⟨0, _⟩ => rfl)
  have eb : broadcastInDim S128x576 ![0, 1] bcast_S1x576_S128x576_0_1 (iotaInDim S1x576 32 1) (ix2 k j) = BitVec.ofNat 32 j.val := by
    rw [broadcastInDim_apply _ bcast_S1x576_S128x576_0_1 _ (ix2 k j) (ix2 (0 : Fin 1) j) (fun a => by
      match a with
      | ⟨0, _⟩ => rfl
      | ⟨1, _⟩ => rfl)]
    rfl
  show (((IntOp.cmpi .eq (broadcastInDim S128x576 ![0, 1] bcast_S128x1_S128x576_0_1 (broadcastInDim S128x1 ![0] bcast_S128_S128x1_0 wd) (ix2 k j))
      (broadcastInDim S128x576 ![0, 1] bcast_S1x576_S128x576_0_1 (iotaInDim S1x576 32 1) (ix2 k j))).toNat : ℝ) : EReal) = _
  rw [ea, eb]
  by_cases hw : wd (ix1 k) = BitVec.ofNat 32 j.val
  · rw [if_pos hw, hw]
    simp [IntOp.cmpi]
  · rw [if_neg hw]
    simp [IntOp.cmpi, hw]

/-- Entry (s, k, cc) of the laid-out table is entry (k, s*64 + cc) of the flat one. -/
theorem laidOut_apply (T : FVec Ideal S128x576 .f32) (s : Fin 9) (k : Fin 128) (cc : Fin 64) :
    laidOut T (ix3 s k cc) = T (ix2 k ⟨s.val * 64 + cc.val, by omega⟩) := by
  unfold laidOut
  rw [transpose_apply _ _ transposes_S128x9x64_S9x128x64_1_0_2 (ix3 s k cc) (ix3 k s cc) (fun b => by
    match b with
    | ⟨0, _⟩ => rfl
    | ⟨1, _⟩ => rfl
    | ⟨2, _⟩ => rfl)]
  exact shapeCast_apply _ shapeCasts_S128x576_S128x9x64 _ _ (by
    rw [Shape.rowMajor_val_two, Shape.rowMajor_val_three]
    show k.val * 576 + (s.val * 64 + cc.val) = (k.val * 9 + s.val) * 64 + cc.val
    omega)

/-- The host's table of a table of triples is its selection table. -/
theorem laidOut_eq_selTable (P : IVec S128x3 32) (i : ST.Idx) : laidOut (flatTable (rowWords P)) i = selTable P i := by
  obtain ⟨s, k, cc, rfl⟩ : ∃ (s : Fin 9) (k : Fin 128) (cc : Fin 64), i = ix3 s k cc := ⟨i 0, i 1, i 2, eq_ix3 i⟩
  rw [laidOut_apply, flatTable_apply, rowWords_apply]
  rfl

/-- The first table operand the kernel is launched with is the selection table of the first table of triples. -/
theorem V_selA (c : Dev nD) (i : ST.Idx) :
    (V m c main_v14 : S9x128x64.Idx → EReal) i = selTable (m ((c : Thread nD τ).loc main_arg1)) i := by
  rw [V_v14_term]
  exact laidOut_eq_selTable _ i

/-- The second table operand is the selection table of the second table of triples. -/
theorem V_selB (c : Dev nD) (i : ST.Idx) :
    (V m c main_v29 : S9x128x64.Idx → EReal) i = selTable (m ((c : Thread nD τ).loc main_arg2)) i := by
  rw [V_v29_term]
  exact laidOut_eq_selTable _ i

end Cert.KernelIdeal.HostStage

end
-- ==== Proof.KerHostAB.lean ====
/-
  Two of the four coefficient columns the host operations in front of the kernel compute from the weights:
  the coefficient of a*b and the constant term.
-/
import proofs.«431178_j6897717477609_1_alg».proof.Proof.Gen.KernelIdeal.Frame
import proofs.«431178_j6897717477609_1_alg».proof.Proof.Spec
import proofs.«431178_j6897717477609_1_alg».proof.Proof.Consts
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.HostStage

open Cert.KernelIdeal Cert.KernelIdeal.Gen Idealize.ShloMosaic Idealize.ShloMosaic.TcCoe Idealize.SL.Sem
open Idealize.ShloMosaic.ValueIdx Cert.LogicConv

variable (m : (ℓ : Loc nD τ sig) → Buf (Elt Ideal) ℓ)

/-! ## The terms the host operations compute, over the weight table alone -/

/-- Column `j` of the weight table as a vector over the 128 output channels. -/
private def colv (W : S128x16.Idx → EReal) (j : Fin 16) (hs : S128x16.Slices ![0, j.val] S128x1) : S128.Idx → EReal :=
  shapeCast S128 (extractStridedSlice S128x1 ![0, j.val] W hs) shapeCasts_S128x1_S128

/-- The constant 2.0 as a vector over the 128 output channels. -/
private def twov : S128.Idx → EReal :=
  broadcastInDim S128 ![] bcast_S_S128 (constant (F := Ideal) S_ .f32 0x40000000#32)

/-- w1 - w2 - w4 - 2*w6 - w7 + w8 + 2*w9 + w11 + w13 - w14, left to right, as a [128, 1, 1] column. -/
private def termAB (W : S128x16.Idx → EReal) : S128x1x1.Idx → EReal :=
  shapeCast S128x1x1
    (subf (F := Ideal) (φ := .f32)
      (addf (F := Ideal) (φ := .f32)
        (addf (F := Ideal) (φ := .f32)
          (addf (F := Ideal) (φ := .f32)
            (addf (F := Ideal) (φ := .f32)
              (subf (F := Ideal) (φ := .f32)
                (subf (F := Ideal) (φ := .f32)
                  (subf (F := Ideal) (φ := .f32)
                    (subf (F := Ideal) (φ := .f32) (colv W 1 slices_S128x16_S128x1_0_1) (colv W 2 slices_S128x16_S128x1_0_2))
                    (colv W 4 slices_S128x16_S128x1_0_4))
                  (mulf (F := Ideal) (φ := .f32) twov (colv W 6 slices_S128x16_S128x1_0_6)))
                (colv W 7 slices_S128x16_S128x1_0_7))
              (colv W 8 slices_S128x16_S128x1_0_8))
            (mulf (F := Ideal) (φ := .f32) twov (colv W 9 slices_S128x16_S128x1_0_9)))
          (colv W 11 slices_S128x16_S128x1_0_11))
        (colv W 13 slices_S128x16_S128x1_0_13))
      (colv W 14 slices_S128x16_S128x1_0_14))
    shapeCasts_S128_S128x1x1

/-- w8 + w9 + w10 + w11 + w12 + w13 + w14 + w15, left to right, as a [128, 1, 1] column. -/
private def termOne (W : S128x16.Idx → EReal) : S128x1x1.Idx → EReal :=
  shapeCast S128x1x1
    (addf (F := Ideal) (φ := .f32)
      (addf (F := Ideal) (φ := .f32)
        (addf (F := Ideal) (φ := .f32)
          (addf (F := Ideal) (φ := .f32)
            (addf (F := Ideal) (φ := .f32)
              (addf (F := Ideal) (φ := .f32)
                (addf (F := Ideal) (φ := .f32) (colv W 8 slices_S128x16_S128x1_0_8) (colv W 9 slices_S128x16_S128x1_0_9))
                (colv W 10 slices_S128x16_S128x1_0_10))
              (colv W 11 slices_S128x16_S128x1_0_11))
            (colv W 12 slices_S128x16_S128x1_0_12))
          (colv W 13 slices_S128x16_S128x1_0_13))
        (colv W 14 slices_S128x16_S128x1_0_14))
      (colv W 15 slices_S128x16_S128x1_0_15))
    shapeCasts_S128_S128x1x1

/-- A column vector at channel k is the table's entry (k, j). -/
private theorem colv_apply (W : S128x16.Idx → EReal) (j : Fin 16) (hs : S128x16.Slices ![0, j.val] S128x1) (k : Fin 128) :
    colv W j hs (ix1 k) = W (ix2 k j) := by
  unfold colv
  refine (shapeCast_apply _ shapeCasts_S128x1_S128 (ix1 k) (ix2 k (0 : Fin 1)) ?_).trans ?_
  · rw [Shape.rowMajor_val_two, Shape.rowMajor_val_one]
    show k.val * 1 + 0 = k.val
    omega
  refine extractStridedSlice_apply _ W hs (ix2 k (0 : Fin 1)) (ix2 k j) fun a => ?_
  match a with
  | ⟨0, _⟩ => show k.val = 0 + k.val; omega
  | ⟨1, _⟩ => show j.val = j.val + 0; omega

private theorem twov_apply (i : S128.Idx) : twov i = 2 := Consts.ofBits_two

private theorem termAB_apply (W : S128x16.Idx → EReal) (k : Fin 128) :
    termAB W (ix3 k 0 0) = coefAB (fun i => W (ix2 k i)) := by
  unfold termAB coefAB
  refine (shapeCast_apply _ shapeCasts_S128_S128x1x1 (ix3 k 0 0) (ix1 k) ?_).trans ?_
  · rw [Shape.rowMajor_val_one, Shape.rowMajor_val_three]
    show k.val = (k.val * 1 + 0) * 1 + 0
    omega
  simp only [subf_apply, addf_apply, mulf_apply, colv_apply, twov_apply]

private theorem termOne_apply (W : S128x16.Idx → EReal) (k : Fin 128) :
    termOne W (ix3 k 0 0) = coefOne (fun i => W (ix2 k i)) := by
  unfold termOne coefOne
  refine (shapeCast_apply _ shapeCasts_S128_S128x1x1 (ix3 k 0 0) (ix1 k) ?_).trans ?_
  · rw [Shape.rowMajor_val_one, Shape.rowMajor_val_three]
    show k.val = (k.val * 1 + 0) * 1 + 0
    omega
  simp only [addf_apply, colv_apply]

/-! ## The host operations compute those terms -/

set_option maxHeartbeats 4000000 in
private theorem V_v111 (c : Dev nD) :
    (V m c main_v111 : S128x1x1.Idx → EReal) = termAB (m ((c : Thread nD τ).loc main_arg3)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 4000000 in
private theorem V_v135 (c : Dev nD) :
    (V m c main_v135 : S128x1x1.Idx → EReal) = termOne (m ((c : Thread nD τ).loc main_arg3)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

theorem V_coefAB (c : Dev nD) (k : Fin 128) :
    (V m c main_v111 : S128x1x1.Idx → EReal) (ix3 k 0 0) = coefAB (fun i => (m ((c : Thread nD τ).loc main_arg3) : S128x16.Idx → EReal) (ix2 k i)) :=
  (congrFun (V_v111 m c) (ix3 k 0 0)).trans (termAB_apply _ k)

theorem V_coefOne (c : Dev nD) (k : Fin 128) :
    (V m c main_v135 : S128x1x1.Idx → EReal) (ix3 k 0 0) = coefOne (fun i => (m ((c : Thread nD τ).loc main_arg3) : S128x16.Idx → EReal) (ix2 k i)) :=
  (congrFun (V_v135 m c) (ix3 k 0 0)).trans (termOne_apply _ k)

end Cert.KernelIdeal.HostStage

end
-- ==== Proof.KerHost.lean ====
/-
  What the host operations in front of the kernel hand it: the two selection tables and the four coefficient columns
  (the selection tables and two of the columns are read in the two modules imported below; the other two columns here).
  Each coefficient column is a chain of sums and differences of columns of the weight table, reshaped to 128 x 1 x 1;
  read at (k, 0, 0) it is the same chain of the entries of row k, which is the collected coefficient by definition.
-/
import proofs.«431178_j6897717477609_1_alg».proof.Proof.Gen.KernelIdeal.Frame
import proofs.«431178_j6897717477609_1_alg».proof.Proof.Spec
import proofs.«431178_j6897717477609_1_alg».proof.Proof.Consts
import proofs.«431178_j6897717477609_1_alg».proof.Proof.KerHostSel
import proofs.«431178_j6897717477609_1_alg».proof.Proof.KerHostAB
import Idealize.ShloMosaic.Lib.Pipeline.Value
import Idealize.ShloMosaic.Lib.ValueLayout
import Idealize.ShloMosaic.Lib.StableHlo.Run
import Idealize.ShloMosaic.Lib.IdealHost

set_option maxRecDepth 16384

noncomputable section

namespace Cert.KernelIdeal.HostStage

open Cert.KernelIdeal Cert.KernelIdeal.Gen Idealize.ShloMosaic Idealize.ShloMosaic.TcCoe Idealize.SL.Sem
open Idealize.ShloMosaic.ValueIdx Cert.LogicConv

variable (m : (ℓ : Loc nD τ sig) → Buf (Elt Ideal) ℓ)

/-- Column `o` of a table of 128 rows of 16 reals, taken as a 128 x 1 slice and flattened to a vector, reads at row `k`
    the table's entry `(k, o)`. -/
private theorem weightCol_apply (W : S128x16.Idx → EReal) (o : ℕ) (ho : o < 16) (hs : S128x16.Slices ![0, o] S128x1)
    (hc : S128x1.ShapeCasts S128) (k : Fin 128) :
    shapeCast S128 (extractStridedSlice S128x1 ![0, o] W hs) hc (ix1 k) = W (ix2 k ⟨o, ho⟩) :=
  (shapeCast_apply _ hc (ix1 k) (ix2 k (0 : Fin 1)) (by
    rw [Shape.rowMajor_val_two, Shape.rowMajor_val_one]
    show k.val * 1 + 0 = k.val
    omega)).trans
  (slice2_axis1_apply o W hs k (0 : Fin 1) ⟨o, ho⟩ rfl)

/-- A vector of 128 reals reshaped to a 128 x 1 x 1 column reads at `(k, 0, 0)` its entry `k`. -/
private theorem weightColumn_apply (v : S128.Idx → EReal) (hc : S128.ShapeCasts S128x1x1) (k : Fin 128) :
    shapeCast S128x1x1 v hc (ix3 k 0 0) = v (ix1 k) :=
  shapeCast_apply _ hc (ix3 k 0 0) (ix1 k) (by
    rw [Shape.rowMajor_val_one, Shape.rowMajor_val_three]
    show k.val = (k.val * 1 + 0) * 1 + 0
    omega)

/-- The weight table as the kernel region finds it: no host operation writes it. -/
private abbrev weightTable (c : Dev nD) : S128x16.Idx → EReal := m ((c : Thread nD τ).loc main_arg3)

/-- Column `o` of the weight table, as the host operations build it: slice, then reshape to a vector. -/
private abbrev weightCol (c : Dev nD) (o : ℕ) (hs : S128x16.Slices ![0, o] S128x1) : FVec Ideal S128 .f32 :=
  fun i => shapeCast S128 (extractStridedSlice S128x1 ![0, o] (weightTable m c) hs) Facts₀.shapeCasts_S128x1_S128 i

set_option maxHeartbeats 4000000 in
/-- The first tap's coefficient column as the host operations compose it:
    w2 + w3 + w6 + w7 - w8 - w9 - w12 - w13 over the columns of the weights, then the reshape to a column. -/
private theorem V53_term (c : Dev nD) :
    (V m c main_v53 : S128x1x1.Idx → EReal) = fun i => shapeCast S128x1x1
      (subf (subf (subf (subf (addf (addf (addf
        (weightCol m c 2 Facts₀.slices_S128x16_S128x1_0_2) (weightCol m c 3 Facts₀.slices_S128x16_S128x1_0_3))
        (weightCol m c 6 Facts₀.slices_S128x16_S128x1_0_6)) (weightCol m c 7 Facts₀.slices_S128x16_S128x1_0_7))
        (weightCol m c 8 Facts₀.slices_S128x16_S128x1_0_8)) (weightCol m c 9 Facts₀.slices_S128x16_S128x1_0_9))
        (weightCol m c 12 Facts₀.slices_S128x16_S128x1_0_12)) (weightCol m c 13 Facts₀.slices_S128x16_S128x1_0_13) : FVec Ideal S128 .f32)
      Facts₀.shapeCasts_S128_S128x1x1 i := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The coefficient columns of the two taps, entry k: the collected coefficients of row k of the weights. -/
theorem V_coefA (c : Dev nD) (k : Fin 128) :
    (V m c main_v53 : S128x1x1.Idx → EReal) (ix3 k 0 0) = coefA (fun i => (m ((c : Thread nD τ).loc main_arg3) : S128x16.Idx → EReal) (ix2 k i)) := by
  rw [V53_term]
  show shapeCast S128x1x1 _ _ (ix3 k 0 0) = _
  rw [weightColumn_apply]
  simp (disch := decide) only [subf_apply, addf_apply, weightCol, weightTable, weightCol_apply]
  rfl

set_option maxHeartbeats 4000000 in
/-- The second tap's coefficient column as the host operations compose it:
    w4 + w5 + w6 + w7 - w8 - w9 - w10 - w11 over the columns of the weights, then the reshape to a column. -/
private theorem V77_term (c : Dev nD) :
    (V m c main_v77 : S128x1x1.Idx → EReal) = fun i => shapeCast S128x1x1
      (subf (subf (subf (subf (addf (addf (addf
        (weightCol m c 4 Facts₀.slices_S128x16_S128x1_0_4) (weightCol m c 5 Facts₀.slices_S128x16_S128x1_0_5))
        (weightCol m c 6 Facts₀.slices_S128x16_S128x1_0_6)) (weightCol m c 7 Facts₀.slices_S128x16_S128x1_0_7))
        (weightCol m c 8 Facts₀.slices_S128x16_S128x1_0_8)) (weightCol m c 9 Facts₀.slices_S128x16_S128x1_0_9))
        (weightCol m c 10 Facts₀.slices_S128x16_S128x1_0_10)) (weightCol m c 11 Facts₀.slices_S128x16_S128x1_0_11) : FVec Ideal S128 .f32)
      Facts₀.shapeCasts_S128_S128x1x1 i := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

/-- The same for the second tap's column. -/
theorem V_coefB (c : Dev nD) (k : Fin 128) :
    (V m c main_v77 : S128x1x1.Idx → EReal) (ix3 k 0 0) = coefB (fun i => (m ((c : Thread nD τ).loc main_arg3) : S128x16.Idx → EReal) (ix2 k i)) := by
  rw [V77_term]
  show shapeCast S128x1x1 _ _ (ix3 k 0 0) = _
  rw [weightColumn_apply]
  simp (disch := decide) only [subf_apply, addf_apply, weightCol, weightTable, weightCol_apply]
  rfl

end Cert.KernelIdeal.HostStage

end
-- ==== Proof.OneHot.lean ====
/-
  A selection table in range picks one tap.

  For a table of triples in range, row k's hot word (h*3 + w)*64 + c is below 576 and decomposes uniquely as
  s*64 + c' with c' < 64, so entry (s, k, c') of the selection table is 1 exactly when s = 3*h + w and c' = c.
  A shift's contraction with the table's row is therefore the one entry X[c, h + p, w + q] when s = 3*h + w and 0
  otherwise (0 * x = 0 for every extended real x), and the nine shifts added to zero leave that one entry.
-/
import proofs.«431178_j6897717477609_1_alg».proof.Proof.Spec

noncomputable section

namespace Cert.LogicConv

open Idealize.ShloMosaic Idealize.ShloMosaic.ValueIdx

/-- In range, the hot word is the natural number (h*3 + w)*64 + c: no 32-bit wrap. -/
theorem hotWord_eq (P : IVec SP 32) (hP : InRange P) (k : Fin 128) :
    hotWord P k = BitVec.ofNat 32 ((fld P k 0 * 3 + fld P k 1) * 64 + fld P k 2) := by
  obtain ⟨h0, h1, h2⟩ := hP k
  unfold fld at h0 h1 h2 ⊢
  apply BitVec.eq_of_toNat_eq
  unfold hotWord
  simp only [BitVec.toNat_add, BitVec.toNat_mul, BitVec.toNat_ofNat]
  omega

/-- In range, entry (s, k, c) of the selection table is 1 exactly at s = 3*h + w, c = c_k. -/
theorem selTable_apply (P : IVec SP 32) (hP : InRange P) (s : Fin 9) (k : Fin 128) (c : Fin 64) :
    selTable P (ix3 s k c) = if s.val = fld P k 0 * 3 + fld P k 1 ∧ c.val = fld P k 2 then 1 else 0 := by
  obtain ⟨h0, h1, h2⟩ := hP k
  unfold selTable
  show (if hotWord P k = BitVec.ofNat 32 (s.val * 64 + c.val) then (1 : EReal) else 0) = _
  rw [hotWord_eq P hP k]
  have hs := s.isLt
  have hc := c.isLt
  have key : (BitVec.ofNat 32 ((fld P k 0 * 3 + fld P k 1) * 64 + fld P k 2) = BitVec.ofNat 32 (s.val * 64 + c.val))
      ↔ (s.val = fld P k 0 * 3 + fld P k 1 ∧ c.val = fld P k 2) := by
    constructor
    · intro e
      have e' := congrArg BitVec.toNat e
      simp only [BitVec.toNat_ofNat] at e'
      omega
    · rintro ⟨e1, e2⟩
      rw [e1, e2]
  simp only [key]

/-- A shift's contraction with row k of the selection table: the tap's entry at the one matching shift, else 0. -/
theorem shiftTerm_sel (P : IVec SP 32) (hP : InRange P) (k : Fin 128) (x : Fin 64 → Fin 128 → Fin 128 → EReal)
    (p q : Fin 126) (s : Fin 9) :
    shiftTerm (fun s c => selTable P (ix3 s k c)) x p q s
      = if s.val = fld P k 0 * 3 + fld P k 1 then
          x ⟨fld P k 2, (hP k).2.2⟩ ⟨s.val / 3 + p.val, by omega⟩ ⟨s.val % 3 + q.val, by omega⟩
        else 0 := by
  unfold shiftTerm
  simp only [selTable_apply P hP]
  by_cases hs : s.val = fld P k 0 * 3 + fld P k 1
  · simp only [hs, true_and, if_true]
    rw [Finset.sum_eq_single (⟨fld P k 2, (hP k).2.2⟩ : Fin 64)]
    · simp
    · intro c _ hne
      have : ¬ c.val = fld P k 2 := fun e => hne (Fin.ext e)
      simp [this]
    · intro hn; exact absurd (Finset.mem_univ _) hn
  · simp only [hs, false_and, if_false, zero_mul, Finset.sum_const_zero]

/-- The nine shifts of a table in range add up to the tap. -/
theorem shiftSum_select (P : IVec SP 32) (hP : InRange P) (k : Fin 128) (X : SX.Idx → EReal) (b : Fin 16) (p q : Fin 126) :
    shiftSum (fun s c => selTable P (ix3 s k c)) (fun c r l => X (ix4 b c r l)) p q = X (tap P k p q b) := by
  obtain ⟨h0, h1, h2⟩ := hP k
  unfold shiftSum
  simp only [shiftTerm_sel P hP]
  unfold tap
  have e2 : min (fld P k 2) 63 = fld P k 2 := by omega
  have e0 : min (fld P k 0 + p.val) 127 = fld P k 0 + p.val := by have := p.isLt; omega
  have e1 : min (fld P k 1 + q.val) 127 = fld P k 1 + q.val := by have := q.isLt; omega
  simp only [e2, e0, e1]
  have c0 : fld P k 0 = 0 ∨ fld P k 0 = 1 ∨ fld P k 0 = 2 := by omega
  have c1 : fld P k 1 = 0 ∨ fld P k 1 = 1 ∨ fld P k 1 = 2 := by omega
  rcases c0 with hh | hh | hh <;> rcases c1 with hw | hw | hw <;> simp [hh, hw]

end Cert.LogicConv

end
-- ==== Proof.KerResult.lean ====
/-
  The kernel's result array is the common result.

  The table form of the arrays the region is entered with has, at entry (b, k, p, q): the four coefficient columns at
  k, which are the collected coefficients of row k of W; and the two shift sums over the selection tables of PA and PB,
  which for tables in range are the taps X[b, c_k, h_k + p, w_k + q].
-/
import proofs.«431178_j6897717477609_1_alg».proof.Proof.KerArray
import proofs.«431178_j6897717477609_1_alg».proof.Proof.KerHost
import proofs.«431178_j6897717477609_1_alg».proof.Proof.OneHot

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.LogicConv

variable (m : (ℓ : Loc nD τ sig) → Buf (Elt Ideal) ℓ) (ρ : Dev nD → PrngReg)

/-- With both tables in range, the table form of the entered arrays is `result` of the argument arrays. -/
theorem entered_eq_result (c : Dev nD) (hA : InRange (m ((c : Thread nD τ).loc main_arg1)))
    (hB : InRange (m ((c : Thread nD τ).loc main_arg2))) :
    entered m c = (result (m ((c : Thread nD τ).loc main_arg0)) (m ((c : Thread nD τ).loc main_arg1))
      (m ((c : Thread nD τ).loc main_arg2)) (m ((c : Thread nD τ).loc main_arg3)) : S16x128x126x126.Idx → EReal) := by
  funext j
  have ea := HostStage.V_coefA m c (j 1)
  have eb := HostStage.V_coefB m c (j 1)
  have eab := HostStage.V_coefAB m c (j 1)
  have e1 := HostStage.V_coefOne m c (j 1)
  have hx : (fun (cc : Fin 64) (r l : Fin 128) => (V m c main_arg0 : S16x64x128x128.Idx → EReal) (ix4 (j 0) cc r l))
      = fun cc r l => (m ((c : Thread nD τ).loc main_arg0) : S16x64x128x128.Idx → EReal) (ix4 (j 0) cc r l) := by
    rw [V_main_arg0]
  have sa : shiftSum (fun s cc => (V m c main_v14 : S9x128x64.Idx → EReal) (ix3 s (j 1) cc))
      (fun cc r l => (V m c main_arg0 : S16x64x128x128.Idx → EReal) (ix4 (j 0) cc r l)) (j 2) (j 3)
      = (m ((c : Thread nD τ).loc main_arg0) : S16x64x128x128.Idx → EReal) (tap (m ((c : Thread nD τ).loc main_arg1)) (j 1) (j 2) (j 3) (j 0)) := by
    have h1 : (fun (s : Fin 9) (cc : Fin 64) => (V m c main_v14 : S9x128x64.Idx → EReal) (ix3 s (j 1) cc))
        = fun s cc => selTable (m ((c : Thread nD τ).loc main_arg1)) (ix3 s (j 1) cc) :=
      funext fun s => funext fun cc => HostStage.V_selA m c _
    rw [h1, hx]
    exact shiftSum_select _ hA (j 1) _ (j 0) (j 2) (j 3)
  have sb : shiftSum (fun s cc => (V m c main_v29 : S9x128x64.Idx → EReal) (ix3 s (j 1) cc))
      (fun cc r l => (V m c main_arg0 : S16x64x128x128.Idx → EReal) (ix4 (j 0) cc r l)) (j 2) (j 3)
      = (m ((c : Thread nD τ).loc main_arg0) : S16x64x128x128.Idx → EReal) (tap (m ((c : Thread nD τ).loc main_arg2)) (j 1) (j 2) (j 3) (j 0)) := by
    have h1 : (fun (s : Fin 9) (cc : Fin 64) => (V m c main_v29 : S9x128x64.Idx → EReal) (ix3 s (j 1) cc))
        = fun s cc => selTable (m ((c : Thread nD τ).loc main_arg2)) (ix3 s (j 1) cc) :=
      funext fun s => funext fun cc => HostStage.V_selB m c _
    rw [h1, hx]
    exact shiftSum_select _ hB (j 1) _ (j 0) (j 2) (j 3)
  show combine _ _ _ _ _ _ = combine _ _ _ _ _ _
  rw [ea, eb, eab, e1, sa, sb]

/-- The kernel's run with its result array at `result` of the arguments, for tables in range on every device. -/
theorem run_result (hA : ∀ c : Dev nD, InRange (m ((c : Thread nD τ).loc main_arg1)))
    (hB : ∀ c : Dev nD, InRange (m ((c : Thread nD τ).loc main_arg2))) :
    θ_run defs (onTc (τ := τ) (main (F := Ideal))) ⟨m, fun _ => 0, ρ⟩ fun r => ∀ c : Dev nD,
      r.2.mem ((c : Thread nD τ).loc main_v136)
          = (result (m ((c : Thread nD τ).loc main_arg0)) (m ((c : Thread nD τ).loc main_arg1))
              (m ((c : Thread nD τ).loc main_arg2)) (m ((c : Thread nD τ).loc main_arg3)) : S16x128x126x126.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (entered_eq_result m c (hA c) (hB c)), (h c).2⟩) (run m ρ)

end Cert.KernelIdeal.ArrayValue

end
-- ==== Proof.RefValue.lean ====
/-
  The reference's result, entry by entry: the fifteen-term gate sum of the two gathered taps, and so, where the
  tables are in range and the floats are real, the collected form.
-/
import proofs.«431178_j6897717477609_1_alg».proof.Proof.Gen.ReferenceIdeal.Run
import proofs.«431178_j6897717477609_1_alg».proof.Proof.Spec
import proofs.«431178_j6897717477609_1_alg».proof.Proof.Consts
import Idealize.ShloMosaic.Lib.Pipeline.Value
import Idealize.ShloMosaic.Lib.ValueLayout
import Idealize.ShloMosaic.Lib.IdealHost
import Idealize.ShloMosaic.Lib.StableHlo.Predicate

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem
open Idealize.ShloMosaic.StableHlo
open Idealize.ShloMosaic.ValueIdx Cert.LogicConv
open Idealize.ShloMosaic.StableHlo.Predicate

/-- A word below 2^31 is not negative, so the wrap-around select keeps it, and read signed it is itself. -/
theorem sel_toNat (x n : BitVec 32) (hx : x.toNat < 2 ^ 31) :
    (Scalar.select (IntOp.cmpi .slt x 0#32) (IntOp.addi x n) x).toInt.toNat = x.toNat := by
  have hc : ¬ IntOp.cmpi .slt x 0#32 = 1#1 := by
    rw [slt_iff_toNat hx (by decide)]
    simp
  rw [eq_zero_of_ne_one hc, select_zero, toInt_eq_toNat_of_lt hx]
  exact Int.toNat_natCast _

/-- A small field plus a grid coordinate does not wrap. -/
theorem add_toNat (h : BitVec 32) (p : ℕ) (hh : h.toNat < 3) (hp : p < 126) :
    (IntOp.addi h (BitVec.ofNat 32 p)).toNat = h.toNat + p := by
  unfold IntOp.addi
  rw [BitVec.toNat_add, BitVec.toNat_ofNat]
  omega

/-- Row i of the transposed weight table, laid along the channel axis and spread over batch and grid, read at an index. -/
theorem wcol_apply (W : S128x16.Idx → EReal) (i : Fin 16) (off : Fin 5 → Nat) (hoff : off = ![i.val, 0, 0, 0, 0])
    (h : S16x1x128x1x1.Slices off S1x1x128x1x1) (b : Fin 16) (k : Fin 128) (p q : Fin 126) :
    broadcastInDim S16x128x126x126 ![0, 1, 2, 3] bcast_S1x128x1x1_S16x128x126x126_0_1_2_3
      (shapeCast _ (extractStridedSlice S1x1x128x1x1 off
        (broadcastInDim S16x1x128x1x1 ![0, 2] bcast_S16x128_S16x1x128x1x1_0_2
          (transpose S16x128 [1, 0] W transposes_S128x16_S16x128_1_0)) h)
        shapeCasts_S1x1x128x1x1_S1x128x1x1) (ix4 b k p q) = W (ix2 k i) := by
  subst hoff
  refine (broadcastInDim_apply _ _ _ _ (ix4 (0 : Fin 1) k (0 : Fin 1) (0 : Fin 1)) ?_).trans ?_
  · intro a; fin_cases a <;> rfl
  refine (shapeCast_apply _ _ _ (ix5 (0 : Fin 1) (0 : Fin 1) k (0 : Fin 1) (0 : Fin 1)) ?_).trans ?_
  · rw [Shape.rowMajor_val_five, Shape.rowMajor_val_four]
    simp
  refine (extractStridedSlice_apply _ _ _ _ (ix5 i (0 : Fin 1) k (0 : Fin 1) (0 : Fin 1)) ?_).trans ?_
  · intro a; fin_cases a <;> simp
  refine (broadcastInDim_apply _ _ _ _ (ix2 i k) ?_).trans ?_
  · intro a; fin_cases a <;> rfl
  exact transpose_apply _ _ _ _ (ix2 k i) (by intro b; fin_cases b <;> rfl)

/-- The gather's dimension numbers: the operand's batch axis kept, its three other axes addressed by the index triple. -/
abbrev gd := gather_S16x64x128x128_S128x126x126x3_S16x128x126x126_0_123_n_n_123_3_16111

/-- Where result index (b, k, p, q) reads component c of its index triple. -/
theorem siIdx_eq (b : Fin 16) (k : Fin 128) (p q : Fin 126) (c : Fin gd.startIndexMap.length) :
    gd.siIdx (ix4 b k p q) c = ix4 k p q (⟨c.val, c.isLt⟩ : Fin 3) := by
  funext a; refine Fin.ext ?_
  match a with
  | ⟨0, _⟩ => rfl
  | ⟨1, _⟩ => rfl
  | ⟨2, _⟩ => rfl
  | ⟨3, _⟩ => rfl

section Gather
variable (X : S16x64x128x128.Idx → EReal) (idx : IVec S128x126x126x3 32) (b : Fin 16) (k : Fin 128) (p q : Fin 126)

theorem opIdx0 : (gd.operandIdx (ix4 b k p q) idx 0).val = b.val := by
  show gd.start _ idx 0 + gd.batchCoord _ 0 + gd.offCoord _ 0 = _
  rw [GatherDims.batchCoord_eq_zero _ _ _ List.not_mem_nil, Nat.add_zero]
  unfold GatherDims.start
  rw [dif_neg (show ¬ (0 : Fin 4) ∈ gd.startIndexMap from by decide), Nat.zero_add]
  rfl

theorem opIdx1 : (gd.operandIdx (ix4 b k p q) idx 1).val = min (idx (ix4 k p q (0 : Fin 3))).toInt.toNat 63 := by
  show gd.start _ idx 1 + gd.batchCoord _ 1 + gd.offCoord _ 1 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (1 : Fin 4) ∈ gd.startIndexMap from by decide), siIdx_eq]
  rfl

theorem opIdx2 : (gd.operandIdx (ix4 b k p q) idx 2).val = min (idx (ix4 k p q (1 : Fin 3))).toInt.toNat 127 := by
  show gd.start _ idx 2 + gd.batchCoord _ 2 + gd.offCoord _ 2 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (2 : Fin 4) ∈ gd.startIndexMap from by decide), siIdx_eq]
  rfl

theorem opIdx3 : (gd.operandIdx (ix4 b k p q) idx 3).val = min (idx (ix4 k p q (2 : Fin 3))).toInt.toNat 127 := by
  show gd.start _ idx 3 + gd.batchCoord _ 3 + gd.offCoord _ 3 = _
  rw [GatherDims.batchCoord_eq_zero _ _ _ List.not_mem_nil, Nat.add_zero,
    GatherDims.offCoord_eq_zero _ _ _ (fun h => ((GatherDims.mem_sKept _ _).mp h).1 (by decide)), Nat.add_zero]
  unfold GatherDims.start
  rw [dif_pos (show (3 : Fin 4) ∈ gd.startIndexMap from by decide), siIdx_eq]
  rfl

/-- The gather read at (b, k, p, q): image b of the operand at the index triple of (k, p, q), each component read
    signed and held inside its axis. -/
theorem gather_apply :
    Host.gather gd X idx (ix4 b k p q)
      = X (ix4 b (⟨min (idx (ix4 k p q (0 : Fin 3))).toInt.toNat 63, by omega⟩ : Fin 64)
               (⟨min (idx (ix4 k p q (1 : Fin 3))).toInt.toNat 127, by omega⟩ : Fin 128)
               (⟨min (idx (ix4 k p q (2 : Fin 3))).toInt.toNat 127, by omega⟩ : Fin 128)) := by
  unfold Host.gather
  congr 1
  funext a
  refine Fin.ext ?_
  fin_cases a
  · exact opIdx0 idx b k p q
  · exact opIdx1 idx b k p q
  · exact opIdx2 idx b k p q
  · exact opIdx3 idx b k p q

end Gather

section Pieces
variable {α : Type} (k : Fin 128) (p q : Fin 126)

/-- Component 0, 1, 2 of the concatenated index array is its first, second, third piece. -/
theorem cat3_0 (u0 u1 u2 : IVec S128x126x126x1 32) :
    concatenate S128x126x126x3 3 [⟨S128x126x126x1, u0⟩, ⟨S128x126x126x1, u1⟩, ⟨S128x126x126x1, u2⟩]
      concatenates_S128x126x126x1_S128x126x126x1_S128x126x126x1_S128x126x126x3_d3 (ix4 k p q (0 : Fin 3))
      = u0 (ix4 k p q (0 : Fin 1)) :=
  concatenate_apply_piece (t := S128x126x126x3) 3 [⟨S128x126x126x1, u0⟩, ⟨S128x126x126x1, u1⟩, ⟨S128x126x126x1, u2⟩]
    concatenates_S128x126x126x1_S128x126x126x1_S128x126x126x1_S128x126x126x3_d3 (ix4 k p q (0 : Fin 3)) 0 (by simp)
    S128x126x126x1 u0 rfl rfl 0 rfl (ix4 k p q (0 : Fin 1))
    (by intro b hb; fin_cases b <;> first | rfl | exact absurd rfl hb) rfl

theorem cat3_1 (u0 u1 u2 : IVec S128x126x126x1 32) :
    concatenate S128x126x126x3 3 [⟨S128x126x126x1, u0⟩, ⟨S128x126x126x1, u1⟩, ⟨S128x126x126x1, u2⟩]
      concatenates_S128x126x126x1_S128x126x126x1_S128x126x126x1_S128x126x126x3_d3 (ix4 k p q (1 : Fin 3))
      = u1 (ix4 k p q (0 : Fin 1)) :=
  concatenate_apply_piece (t := S128x126x126x3) 3 [⟨S128x126x126x1, u0⟩, ⟨S128x126x126x1, u1⟩, ⟨S128x126x126x1, u2⟩]
    concatenates_S128x126x126x1_S128x126x126x1_S128x126x126x1_S128x126x126x3_d3 (ix4 k p q (1 : Fin 3)) 1 (by simp)
    S128x126x126x1 u1 rfl rfl 1 rfl (ix4 k p q (0 : Fin 1))
    (by intro b hb; fin_cases b <;> first | rfl | exact absurd rfl hb) rfl

theorem cat3_2 (u0 u1 u2 : IVec S128x126x126x1 32) :
    concatenate S128x126x126x3 3 [⟨S128x126x126x1, u0⟩, ⟨S128x126x126x1, u1⟩, ⟨S128x126x126x1, u2⟩]
      concatenates_S128x126x126x1_S128x126x126x1_S128x126x126x1_S128x126x126x3_d3 (ix4 k p q (2 : Fin 3))
      = u2 (ix4 k p q (0 : Fin 1)) :=
  concatenate_apply_piece (t := S128x126x126x3) 3 [⟨S128x126x126x1, u0⟩, ⟨S128x126x126x1, u1⟩, ⟨S128x126x126x1, u2⟩]
    concatenates_S128x126x126x1_S128x126x126x1_S128x126x126x1_S128x126x126x3_d3 (ix4 k p q (2 : Fin 3)) 2 (by simp)
    S128x126x126x1 u2 rfl rfl 2 rfl (ix4 k p q (0 : Fin 1))
    (by intro b hb; fin_cases b <;> first | rfl | exact absurd rfl hb) rfl

/-- The broadcasts of the index arrays, read at an index. -/
theorem bcLast (x : S128x126x126.Idx → α) (u : Fin 1) :
    broadcastInDim S128x126x126x1 ![0, 1, 2] bcast_S128x126x126_S128x126x126x1_0_1_2 x (ix4 k p q u) = x (ix3 k p q) :=
  broadcastInDim_apply _ _ _ _ _ (by intro a; fin_cases a <;> rfl)

theorem bcK (x : S128x1x1.Idx → α) :
    broadcastInDim S128x126x126 ![0, 1, 2] bcast_S128x1x1_S128x126x126_0_1_2 x (ix3 k p q) = x (ix3 k (0 : Fin 1) (0 : Fin 1)) :=
  broadcastInDim_apply _ _ _ _ _ (by intro a; fin_cases a <;> rfl)

theorem bcKP (x : S128x126x1.Idx → α) :
    broadcastInDim S128x126x126 ![0, 1, 2] bcast_S128x126x1_S128x126x126_0_1_2 x (ix3 k p q) = x (ix3 k p (0 : Fin 1)) :=
  broadcastInDim_apply _ _ _ _ _ (by intro a; fin_cases a <;> rfl)

theorem bcKQ (x : S128x1x126.Idx → α) :
    broadcastInDim S128x126x126 ![0, 1, 2] bcast_S128x1x126_S128x126x126_0_1_2 x (ix3 k p q) = x (ix3 k (0 : Fin 1) q) :=
  broadcastInDim_apply _ _ _ _ _ (by intro a; fin_cases a <;> rfl)

/-- Field f of row k of a table of triples, cut out as a column, flattened and laid along the channel axis. -/
theorem field_apply (P : IVec S128x3 32) (f : Fin 3) (off : Fin 2 → Nat) (hoff : off = ![0, f.val])
    (h : S128x3.Slices off S128x1) (u v : Fin 1) :
    broadcastInDim S128x1x1 ![0] bcast_S128_S128x1x1_0
      (shapeCast _ (extractStridedSlice S128x1 off P h) shapeCasts_S128x1_S128) (ix3 k u v) = P (ix2 k f) := by
  subst hoff
  refine (broadcastInDim_apply _ _ _ _ (ix1 k) ?_).trans ?_
  · intro a; fin_cases a; rfl
  refine (shapeCast_apply _ _ _ (ix2 k (0 : Fin 1)) ?_).trans ?_
  · rw [Shape.rowMajor_val_two, Shape.rowMajor_val_one]
    simp
  exact extractStridedSlice_apply _ _ _ _ (ix2 k f) (by intro a; fin_cases a <;> simp)

/-- The row coordinate h_k + p, as the program spells it. -/
theorem hrow_apply (P : IVec S128x3 32) (u : Fin 1) :
    addi (broadcastInDim S128x126x1 ![0, 1, 2] bcast_S128x1x1_S128x126x1_0_1_2
        (broadcastInDim S128x1x1 ![0] bcast_S128_S128x1x1_0
          (shapeCast _ (extractStridedSlice S128x1 ![0, 0] P slices_S128x3_S128x1_0_0) shapeCasts_S128x1_S128)))
      (broadcastInDim S128x126x1 ![0, 1, 2] bcast_S1x126x1_S128x126x1_0_1_2
        (broadcastInDim S1x126x1 ![1] bcast_S126_S1x126x1_1 (iotaInDim S126 32 0))) (ix3 k p u)
      = IntOp.addi (P (ix2 k 0)) (BitVec.ofNat 32 p.val) := by
  show IntOp.addi _ _ = _
  congr 1
  refine (broadcastInDim_apply _ _ _ _ (ix3 k (0 : Fin 1) (0 : Fin 1)) ?_).trans ?_
  · intro a; fin_cases a <;> rfl
  exact field_apply k P 0 _ rfl _ _ _

/-- The column coordinate w_k + q, as the program spells it. -/
theorem wcolumn_apply (P : IVec S128x3 32) (u : Fin 1) :
    addi (broadcastInDim S128x1x126 ![0, 1, 2] bcast_S128x1x1_S128x1x126_0_1_2
        (broadcastInDim S128x1x1 ![0] bcast_S128_S128x1x1_0
          (shapeCast _ (extractStridedSlice S128x1 ![0, 1] P slices_S128x3_S128x1_0_1) shapeCasts_S128x1_S128)))
      (broadcastInDim S128x1x126 ![0, 1, 2] bcast_S1x1x126_S128x1x126_0_1_2
        (broadcastInDim S1x1x126 ![2] bcast_S126_S1x1x126_2 (iotaInDim S126 32 0))) (ix3 k u q)
      = IntOp.addi (P (ix2 k 1)) (BitVec.ofNat 32 q.val) := by
  show IntOp.addi _ _ = _
  congr 1
  refine (broadcastInDim_apply _ _ _ _ (ix3 k (0 : Fin 1) (0 : Fin 1)) ?_).trans ?_
  · intro a; fin_cases a <;> rfl
  exact field_apply k P 1 _ rfl _ _ _

end Pieces

/-- The gather of the index array the program builds from a table of triples is the tap: in range nothing is
    negative, nothing wraps and nothing is held at an edge. -/
theorem gather_tap (X : S16x64x128x128.Idx → EReal) (P : IVec S128x3 32) (hP : InRange P)
    (v8 : IVec S128x1x1 32) (v13 : IVec S128x126x1 32) (v18 : IVec S128x1x126 32)
    (h8 : ∀ (k : Fin 128) (u v : Fin 1), v8 (ix3 k u v) = P (ix2 k 2))
    (h13 : ∀ (k : Fin 128) (p : Fin 126) (u : Fin 1), v13 (ix3 k p u) = IntOp.addi (P (ix2 k 0)) (BitVec.ofNat 32 p.val))
    (h18 : ∀ (k : Fin 128) (u : Fin 1) (q : Fin 126), v18 (ix3 k u q) = IntOp.addi (P (ix2 k 1)) (BitVec.ofNat 32 q.val))
    (b : Fin 16) (k : Fin 128) (p q : Fin 126) :
    Host.gather gd X
      (concatenate S128x126x126x3 3
        [⟨S128x126x126x1, (broadcastInDim S128x126x126x1 ![0, 1, 2] bcast_S128x126x126_S128x126x126x1_0_1_2 (broadcastInDim S128x126x126 ![0, 1, 2] bcast_S128x1x1_S128x126x126_0_1_2 (select (cmpi .slt v8 (broadcastInDim S128x1x1 ![] bcast_S_S128x1x1 (constantI S_ 32 0#32))) (addi v8 (broadcastInDim S128x1x1 ![] bcast_S_S128x1x1 (constantI S_ 32 64#32))) v8)))⟩,
         ⟨S128x126x126x1, (broadcastInDim S128x126x126x1 ![0, 1, 2] bcast_S128x126x126_S128x126x126x1_0_1_2 (broadcastInDim S128x126x126 ![0, 1, 2] bcast_S128x126x1_S128x126x126_0_1_2 (select (cmpi .slt v13 (broadcastInDim S128x126x1 ![] bcast_S_S128x126x1 (constantI S_ 32 0#32))) (addi v13 (broadcastInDim S128x126x1 ![] bcast_S_S128x126x1 (constantI S_ 32 128#32))) v13)))⟩,
         ⟨S128x126x126x1, (broadcastInDim S128x126x126x1 ![0, 1, 2] bcast_S128x126x126_S128x126x126x1_0_1_2 (broadcastInDim S128x126x126 ![0, 1, 2] bcast_S128x1x126_S128x126x126_0_1_2 (select (cmpi .slt v18 (broadcastInDim S128x1x126 ![] bcast_S_S128x1x126 (constantI S_ 32 0#32))) (addi v18 (broadcastInDim S128x1x126 ![] bcast_S_S128x1x126 (constantI S_ 32 128#32))) v18)))⟩]
        concatenates_S128x126x126x1_S128x126x126x1_S128x126x126x1_S128x126x126x3_d3) (ix4 b k p q)
      = X (tap P k p q b) := by
  obtain ⟨h0, h1, h2⟩ := hP k
  unfold fld at h0 h1 h2
  rw [gather_apply]
  unfold tap fld
  congr 1
  funext a
  refine Fin.ext ?_
  fin_cases a
  · rfl
  · show min (_ : BitVec 32).toInt.toNat 63 = min (P (ix2 k 2)).toNat 63
    rw [cat3_0, bcLast, bcK]
    show min (Scalar.select (IntOp.cmpi .slt (v8 _) 0#32) (IntOp.addi (v8 _) 64#32) (v8 _)).toInt.toNat 63 = _
    rw [h8, sel_toNat _ _ (by omega)]
  · show min (_ : BitVec 32).toInt.toNat 127 = min ((P (ix2 k 0)).toNat + p.val) 127
    rw [cat3_1, bcLast, bcKP]
    show min (Scalar.select (IntOp.cmpi .slt (v13 _) 0#32) (IntOp.addi (v13 _) 128#32) (v13 _)).toInt.toNat 127 = _
    have e := add_toNat _ _ h0 p.isLt
    rw [h13, sel_toNat _ _ (by omega), e]
  · show min (_ : BitVec 32).toInt.toNat 127 = min ((P (ix2 k 1)).toNat + q.val) 127
    rw [cat3_2, bcLast, bcKQ]
    show min (Scalar.select (IntOp.cmpi .slt (v18 _) 0#32) (IntOp.addi (v18 _) 128#32) (v18 _)).toInt.toNat 127 = _
    have e := add_toNat _ _ h1 q.isLt
    rw [h18, sel_toNat _ _ (by omega), e]

section Final
variable (V0 : Valuation τ sig (Elt Ideal))

/-! The program's named subterms read at an index. -/

theorem v8_apply (k : Fin 128) (u v : Fin 1) : res_main_v8 V0 (ix3 k u v) = V0 (Proc.devRef .tc main_arg1) (ix2 k 2) :=
  field_apply k _ 2 _ rfl _ u v
theorem v13_apply (k : Fin 128) (p : Fin 126) (u : Fin 1) :
    res_main_v13 V0 (ix3 k p u) = IntOp.addi (V0 (Proc.devRef .tc main_arg1) (ix2 k 0)) (BitVec.ofNat 32 p.val) :=
  hrow_apply k p _ u
theorem v18_apply (k : Fin 128) (u : Fin 1) (q : Fin 126) :
    res_main_v18 V0 (ix3 k u q) = IntOp.addi (V0 (Proc.devRef .tc main_arg1) (ix2 k 1)) (BitVec.ofNat 32 q.val) :=
  wcolumn_apply k q _ u
theorem v50_apply (k : Fin 128) (u v : Fin 1) : res_main_v50 V0 (ix3 k u v) = V0 (Proc.devRef .tc main_arg2) (ix2 k 2) :=
  field_apply k _ 2 _ rfl _ u v
theorem v55_apply (k : Fin 128) (p : Fin 126) (u : Fin 1) :
    res_main_v55 V0 (ix3 k p u) = IntOp.addi (V0 (Proc.devRef .tc main_arg2) (ix2 k 0)) (BitVec.ofNat 32 p.val) :=
  hrow_apply k p _ u
theorem v60_apply (k : Fin 128) (u : Fin 1) (q : Fin 126) :
    res_main_v60 V0 (ix3 k u q) = IntOp.addi (V0 (Proc.devRef .tc main_arg2) (ix2 k 1)) (BitVec.ofNat 32 q.val) :=
  wcolumn_apply k q _ u

/-- The first gather is the tap of the first table. -/
theorem v41_apply (hA : InRange (V0 (Proc.devRef .tc main_arg1))) (b : Fin 16) (k : Fin 128) (p q : Fin 126) :
    res_main_v41 V0 (ix4 b k p q) = V0 (Proc.devRef .tc main_arg0) (tap (V0 (Proc.devRef .tc main_arg1)) k p q b) :=
  gather_tap _ _ hA _ _ _ (v8_apply V0) (v13_apply V0) (v18_apply V0) b k p q

/-- The second gather is the tap of the second table. -/
theorem v83_apply (hB : InRange (V0 (Proc.devRef .tc main_arg2))) (b : Fin 16) (k : Fin 128) (p q : Fin 126) :
    res_main_v83 V0 (ix4 b k p q) = V0 (Proc.devRef .tc main_arg0) (tap (V0 (Proc.devRef .tc main_arg2)) k p q b) :=
  gather_tap _ _ hB _ _ _ (v50_apply V0) (v55_apply V0) (v60_apply V0) b k p q

/-! Row i of the weight table for i = 1 … 15, each read at an index. -/

theorem w1_apply (b : Fin 16) (k : Fin 128) (p q : Fin 126) :
    broadcastInDim S16x128x126x126 ![0, 1, 2, 3] bcast_S1x128x1x1_S16x128x126x126_0_1_2_3 (shapeCast _ (extractStridedSlice S1x1x128x1x1 ![1, 0, 0, 0, 0] (res_main_v86 V0) slices_S16x1x128x1x1_S1x1x128x1x1_1_0_0_0_0) shapeCasts_S1x1x128x1x1_S1x128x1x1) (ix4 b k p q)
      = V0 (Proc.devRef .tc main_arg3) (ix2 k 1) :=
  wcol_apply _ 1 _ rfl _ b k p q
theorem w2_apply (b : Fin 16) (k : Fin 128) (p q : Fin 126) :
    broadcastInDim S16x128x126x126 ![0, 1, 2, 3] bcast_S1x128x1x1_S16x128x126x126_0_1_2_3 (shapeCast _ (extractStridedSlice S1x1x128x1x1 ![2, 0, 0, 0, 0] (res_main_v86 V0) slices_S16x1x128x1x1_S1x1x128x1x1_2_0_0_0_0) shapeCasts_S1x1x128x1x1_S1x128x1x1) (ix4 b k p q)
      = V0 (Proc.devRef .tc main_arg3) (ix2 k 2) :=
  wcol_apply _ 2 _ rfl _ b k p q
theorem w3_apply (b : Fin 16) (k : Fin 128) (p q : Fin 126) :
    broadcastInDim S16x128x126x126 ![0, 1, 2, 3] bcast_S1x128x1x1_S16x128x126x126_0_1_2_3 (shapeCast _ (extractStridedSlice S1x1x128x1x1 ![3, 0, 0, 0, 0] (res_main_v86 V0) slices_S16x1x128x1x1_S1x1x128x1x1_3_0_0_0_0) shapeCasts_S1x1x128x1x1_S1x128x1x1) (ix4 b k p q)
      = V0 (Proc.devRef .tc main_arg3) (ix2 k 3) :=
  wcol_apply _ 3 _ rfl _ b k p q
theorem w4_apply (b : Fin 16) (k : Fin 128) (p q : Fin 126) :
    broadcastInDim S16x128x126x126 ![0, 1, 2, 3] bcast_S1x128x1x1_S16x128x126x126_0_1_2_3 (shapeCast _ (extractStridedSlice S1x1x128x1x1 ![4, 0, 0, 0, 0] (res_main_v86 V0) slices_S16x1x128x1x1_S1x1x128x1x1_4_0_0_0_0) shapeCasts_S1x1x128x1x1_S1x128x1x1) (ix4 b k p q)
      = V0 (Proc.devRef .tc main_arg3) (ix2 k 4) :=
  wcol_apply _ 4 _ rfl _ b k p q
theorem w5_apply (b : Fin 16) (k : Fin 128) (p q : Fin 126) :
    broadcastInDim S16x128x126x126 ![0, 1, 2, 3] bcast_S1x128x1x1_S16x128x126x126_0_1_2_3 (shapeCast _ (extractStridedSlice S1x1x128x1x1 ![5, 0, 0, 0, 0] (res_main_v86 V0) slices_S16x1x128x1x1_S1x1x128x1x1_5_0_0_0_0) shapeCasts_S1x1x128x1x1_S1x128x1x1) (ix4 b k p q)
      = V0 (Proc.devRef .tc main_arg3) (ix2 k 5) :=
  wcol_apply _ 5 _ rfl _ b k p q
theorem w6_apply (b : Fin 16) (k : Fin 128) (p q : Fin 126) :
    broadcastInDim S16x128x126x126 ![0, 1, 2, 3] bcast_S1x128x1x1_S16x128x126x126_0_1_2_3 (shapeCast _ (extractStridedSlice S1x1x128x1x1 ![6, 0, 0, 0, 0] (res_main_v86 V0) slices_S16x1x128x1x1_S1x1x128x1x1_6_0_0_0_0) shapeCasts_S1x1x128x1x1_S1x128x1x1) (ix4 b k p q)
      = V0 (Proc.devRef .tc main_arg3) (ix2 k 6) :=
  wcol_apply _ 6 _ rfl _ b k p q
theorem w7_apply (b : Fin 16) (k : Fin 128) (p q : Fin 126) :
    broadcastInDim S16x128x126x126 ![0, 1, 2, 3] bcast_S1x128x1x1_S16x128x126x126_0_1_2_3 (shapeCast _ (extractStridedSlice S1x1x128x1x1 ![7, 0, 0, 0, 0] (res_main_v86 V0) slices_S16x1x128x1x1_S1x1x128x1x1_7_0_0_0_0) shapeCasts_S1x1x128x1x1_S1x128x1x1) (ix4 b k p q)
      = V0 (Proc.devRef .tc main_arg3) (ix2 k 7) :=
  wcol_apply _ 7 _ rfl _ b k p q
theorem w8_apply (b : Fin 16) (k : Fin 128) (p q : Fin 126) :
    broadcastInDim S16x128x126x126 ![0, 1, 2, 3] bcast_S1x128x1x1_S16x128x126x126_0_1_2_3 (shapeCast _ (extractStridedSlice S1x1x128x1x1 ![8, 0, 0, 0, 0] (res_main_v86 V0) slices_S16x1x128x1x1_S1x1x128x1x1_8_0_0_0_0) shapeCasts_S1x1x128x1x1_S1x128x1x1) (ix4 b k p q)
      = V0 (Proc.devRef .tc main_arg3) (ix2 k 8) :=
  wcol_apply _ 8 _ rfl _ b k p q
theorem w9_apply (b : Fin 16) (k : Fin 128) (p q : Fin 126) :
    broadcastInDim S16x128x126x126 ![0, 1, 2, 3] bcast_S1x128x1x1_S16x128x126x126_0_1_2_3 (shapeCast _ (extractStridedSlice S1x1x128x1x1 ![9, 0, 0, 0, 0] (res_main_v86 V0) slices_S16x1x128x1x1_S1x1x128x1x1_9_0_0_0_0) shapeCasts_S1x1x128x1x1_S1x128x1x1) (ix4 b k p q)
      = V0 (Proc.devRef .tc main_arg3) (ix2 k 9) :=
  wcol_apply _ 9 _ rfl _ b k p q
theorem w10_apply (b : Fin 16) (k : Fin 128) (p q : Fin 126) :
    broadcastInDim S16x128x126x126 ![0, 1, 2, 3] bcast_S1x128x1x1_S16x128x126x126_0_1_2_3 (shapeCast _ (extractStridedSlice S1x1x128x1x1 ![10, 0, 0, 0, 0] (res_main_v86 V0) slices_S16x1x128x1x1_S1x1x128x1x1_10_0_0_0_0) shapeCasts_S1x1x128x1x1_S1x128x1x1) (ix4 b k p q)
      = V0 (Proc.devRef .tc main_arg3) (ix2 k 10) :=
  wcol_apply _ 10 _ rfl _ b k p q
theorem w11_apply (b : Fin 16) (k : Fin 128) (p q : Fin 126) :
    broadcastInDim S16x128x126x126 ![0, 1, 2, 3] bcast_S1x128x1x1_S16x128x126x126_0_1_2_3 (shapeCast _ (extractStridedSlice S1x1x128x1x1 ![11, 0, 0, 0, 0] (res_main_v86 V0) slices_S16x1x128x1x1_S1x1x128x1x1_11_0_0_0_0) shapeCasts_S1x1x128x1x1_S1x128x1x1) (ix4 b k p q)
      = V0 (Proc.devRef .tc main_arg3) (ix2 k 11) :=
  wcol_apply _ 11 _ rfl _ b k p q
theorem w12_apply (b : Fin 16) (k : Fin 128) (p q : Fin 126) :
    broadcastInDim S16x128x126x126 ![0, 1, 2, 3] bcast_S1x128x1x1_S16x128x126x126_0_1_2_3 (shapeCast _ (extractStridedSlice S1x1x128x1x1 ![12, 0, 0, 0, 0] (res_main_v86 V0) slices_S16x1x128x1x1_S1x1x128x1x1_12_0_0_0_0) shapeCasts_S1x1x128x1x1_S1x128x1x1) (ix4 b k p q)
      = V0 (Proc.devRef .tc main_arg3) (ix2 k 12) :=
  wcol_apply _ 12 _ rfl _ b k p q
theorem w13_apply (b : Fin 16) (k : Fin 128) (p q : Fin 126) :
    broadcastInDim S16x128x126x126 ![0, 1, 2, 3] bcast_S1x128x1x1_S16x128x126x126_0_1_2_3 (shapeCast _ (extractStridedSlice S1x1x128x1x1 ![13, 0, 0, 0, 0] (res_main_v86 V0) slices_S16x1x128x1x1_S1x1x128x1x1_13_0_0_0_0) shapeCasts_S1x1x128x1x1_S1x128x1x1) (ix4 b k p q)
      = V0 (Proc.devRef .tc main_arg3) (ix2 k 13) :=
  wcol_apply _ 13 _ rfl _ b k p q
theorem w14_apply (b : Fin 16) (k : Fin 128) (p q : Fin 126) :
    broadcastInDim S16x128x126x126 ![0, 1, 2, 3] bcast_S1x128x1x1_S16x128x126x126_0_1_2_3 (shapeCast _ (extractStridedSlice S1x1x128x1x1 ![14, 0, 0, 0, 0] (res_main_v86 V0) slices_S16x1x128x1x1_S1x1x128x1x1_14_0_0_0_0) shapeCasts_S1x1x128x1x1_S1x128x1x1) (ix4 b k p q)
      = V0 (Proc.devRef .tc main_arg3) (ix2 k 14) :=
  wcol_apply _ 14 _ rfl _ b k p q
theorem w15_apply (b : Fin 16) (k : Fin 128) (p q : Fin 126) :
    broadcastInDim S16x128x126x126 ![0, 1, 2, 3] bcast_S1x128x1x1_S16x128x126x126_0_1_2_3 (shapeCast _ (extractStridedSlice S1x1x128x1x1 ![15, 0, 0, 0, 0] (res_main_v86 V0) slices_S16x1x128x1x1_S1x1x128x1x1_15_0_0_0_0) shapeCasts_S1x1x128x1x1_S1x128x1x1) (ix4 b k p q)
      = V0 (Proc.devRef .tc main_arg3) (ix2 k 15) :=
  wcol_apply _ 15 _ rfl _ b k p q

end Final

/-- The constants one and two, spread over the whole result, read at an index. -/
theorem one_apply (j : S16x128x126x126.Idx) :
    broadcastInDim S16x128x126x126 ![] bcast_S_S16x128x126x126 (constant (F := Ideal) S_ .f32 0x3F800000#32) j = (1 : EReal) :=
  (broadcastInDim_scalar_apply _ _ _).trans ((constant_apply _ _).trans Consts.ofBits_one)

theorem two_apply (j : S16x128x126x126.Idx) :
    broadcastInDim S16x128x126x126 ![] bcast_S_S16x128x126x126 (constant (F := Ideal) S_ .f32 0x40000000#32) j = (2 : EReal) :=
  (broadcastInDim_scalar_apply _ _ _).trans ((constant_apply _ _).trans Consts.ofBits_two)

/-- The run's composed term is the result, entry by entry: the two gathers are the taps, the fifteen weighted terms
    are the gate sum as written, and among real numbers the gate sum is its collected form. -/
theorem term_eq (V0 : Valuation τ sig (Elt Ideal))
    (hX : Finite (s := SX) (V0 (Proc.devRef .tc main_arg0))) (hW : Finite (s := SW) (V0 (Proc.devRef .tc main_arg3)))
    (hA : InRange (V0 (Proc.devRef .tc main_arg1))) (hB : InRange (V0 (Proc.devRef .tc main_arg2))) :
    addf (addf (addf (res_main_v170 V0) (mulf (broadcastInDim S16x128x126x126 ![0, 1, 2, 3] bcast_S1x128x1x1_S16x128x126x126_0_1_2_3 (shapeCast _ (extractStridedSlice S1x1x128x1x1 ![13, 0, 0, 0, 0] (res_main_v86 V0) slices_S16x1x128x1x1_S1x1x128x1x1_13_0_0_0_0) shapeCasts_S1x1x128x1x1_S1x128x1x1)) (addf (subf (broadcastInDim S16x128x126x126 ![] bcast_S_S16x128x126x126 (constant S_ .f32 0x3F800000#32)) (res_main_v41 V0)) (res_main_v84 V0)))) (mulf (broadcastInDim S16x128x126x126 ![0, 1, 2, 3] bcast_S1x128x1x1_S16x128x126x126_0_1_2_3 (shapeCast _ (extractStridedSlice S1x1x128x1x1 ![14, 0, 0, 0, 0] (res_main_v86 V0) slices_S16x1x128x1x1_S1x1x128x1x1_14_0_0_0_0) shapeCasts_S1x1x128x1x1_S1x128x1x1)) (subf (broadcastInDim S16x128x126x126 ![] bcast_S_S16x128x126x126 (constant S_ .f32 0x3F800000#32)) (res_main_v84 V0)))) (mulf (broadcastInDim S16x128x126x126 ![0, 1, 2, 3] bcast_S1x128x1x1_S16x128x126x126_0_1_2_3 (shapeCast _ (extractStridedSlice S1x1x128x1x1 ![15, 0, 0, 0, 0] (res_main_v86 V0) slices_S16x1x128x1x1_S1x1x128x1x1_15_0_0_0_0) shapeCasts_S1x1x128x1x1_S1x128x1x1)) (broadcastInDim S16x128x126x126 ![] bcast_S_S16x128x126x126 (constant S_ .f32 0x3F800000#32)))
      = (result (V0 (Proc.devRef .tc main_arg0)) (V0 (Proc.devRef .tc main_arg1)) (V0 (Proc.devRef .tc main_arg2))
          (V0 (Proc.devRef .tc main_arg3)) : SO.Idx → EReal) := by
  funext j
  obtain ⟨b, k, p, q, rfl⟩ : ∃ b k p q, j = ix4 b k p q := ⟨_, _, _, _, eq_ix4 j⟩
  obtain ⟨ra, ha⟩ := hX (tap (V0 (Proc.devRef .tc main_arg1)) k p q b)
  obtain ⟨rb, hb⟩ := hX (tap (V0 (Proc.devRef .tc main_arg2)) k p q b)
  let wr : Fin 16 → ℝ := fun i => (hW (ix2 k i)).choose
  have hw : (fun i => ((wr i : ℝ) : EReal)) = fun i => V0 (Proc.devRef .tc main_arg3) (ix2 k i) :=
    funext fun i => ((hW (ix2 k i)).choose_spec).symm
  have key := gateSum_eq_collected wr ra rb
  rw [← ha, ← hb, hw] at key
  refine Eq.trans ?_ key
  unfold gateSum res_main_v170 res_main_v84
  simp only [addf_apply, mulf_apply, subf_apply, v41_apply V0 hA, v83_apply V0 hB, w1_apply V0, w2_apply V0, w3_apply V0, w4_apply V0, w5_apply V0, w6_apply V0, w7_apply V0, w8_apply V0, w9_apply V0, w10_apply V0, w11_apply V0, w12_apply V0, w13_apply V0, w14_apply V0, w15_apply V0]
  rw [two_apply, one_apply]

/-- The reference's run with its result named: where both tables are in range and X and W are real on every
    device, every weakly fair execution ends with the result array at `result` of the arguments, the arguments unchanged. -/
theorem run_result (m : (ℓ : Loc nD τ sig) → Buf (Elt Ideal) ℓ) (ρ : Dev nD → PrngReg)
    (hX : ∀ c : Dev nD, Finite (s := SX) (m ((c.tc : Thread nD τ).loc main_arg0)))
    (hW : ∀ c : Dev nD, Finite (s := SW) (m ((c.tc : Thread nD τ).loc main_arg3)))
    (hA : ∀ c : Dev nD, InRange (m ((c.tc : Thread nD τ).loc main_arg1)))
    (hB : ∀ c : Dev nD, InRange (m ((c.tc : Thread nD τ).loc main_arg2))) :
    θ_run defs (onTc (τ := τ) (main (F := Ideal))) ⟨m, fun _ => 0, ρ⟩ fun r => ∀ c : Dev nD,
      r.2.mem ((c.tc : Thread nD τ).loc main_v191)
          = (result (m ((c.tc : Thread nD τ).loc main_arg0)) (m ((c.tc : Thread nD τ).loc main_arg1))
              (m ((c.tc : Thread nD τ).loc main_arg2)) (m ((c.tc : Thread nD τ).loc main_arg3)) : SO.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run (F := Ideal) m ρ)
  exact term_eq (launchContents m c) (hX c) (hW c) (hA c) (hB c)

end Cert.ReferenceIdeal.RefValue

end
-- ==== Proof.lean ====
/-
  The certificate's five claims.

  Frames: the kernel's frame at both instances is the launch and body run over the 16 x 2 grid; the reference is a
  straight line of host operations, and its run, with the result dropped, is its frame.  The idealized kernel is the
  kernel's own text read over the extended reals, so nothing is owed for the idealization.

  Equality of results: the precondition says every entry of X and W is a real number and every triple (h, w, c) of the two
  tables has h, w < 3 and c < 64.  Then the kernel's result array is, entry (b, k, p, q), the collected gate polynomial
  ca*a + cb*b + cab*(a*b) + c1 of the taps a = X[b, cA_k, hA_k + p, wA_k + q] and b = X[b, cB_k, hB_k + p, wB_k + q]
  (each tap a sum over nine shifts of channel contractions with a 0/1 selection table, which has one hot entry per row),
  and the reference's result array is the fifteen-term weighted gate sum of the same two taps, gathered directly; among
  real numbers the two are equal by distributivity.
-/
import proofs.«431178_j6897717477609_1_alg».proof.Defs
import proofs.«431178_j6897717477609_1_alg».proof.Proof.Gen.Kernel
import proofs.«431178_j6897717477609_1_alg».proof.Proof.Gen.Kernel.Skeleton
import proofs.«431178_j6897717477609_1_alg».proof.Proof.Gen.Kernel.Launch
import proofs.«431178_j6897717477609_1_alg».proof.Proof.Gen.Kernel.Points
import proofs.«431178_j6897717477609_1_alg».proof.Proof.Gen.Kernel.Frame
import proofs.«431178_j6897717477609_1_alg».proof.Proof.Gen.KernelIdeal
import proofs.«431178_j6897717477609_1_alg».proof.Proof.Gen.KernelIdeal.Skeleton
import proofs.«431178_j6897717477609_1_alg».proof.Proof.Gen.KernelIdeal.Launch
import proofs.«431178_j6897717477609_1_alg».proof.Proof.Gen.KernelIdeal.Points
import proofs.«431178_j6897717477609_1_alg».proof.Proof.Gen.KernelIdeal.Frame
import proofs.«431178_j6897717477609_1_alg».proof.Proof.Gen.ReferenceIdeal
import proofs.«431178_j6897717477609_1_alg».proof.Proof.Gen.KernelIdeal.Value
import proofs.«431178_j6897717477609_1_alg».proof.Proof.Gen.ReferenceIdeal.Run
import proofs.«431178_j6897717477609_1_alg».proof.Proof.Gen.Pre_finite_inputs
import proofs.«431178_j6897717477609_1_alg».proof.Proof.PreDecode
import proofs.«431178_j6897717477609_1_alg».proof.Proof.KerResult
import proofs.«431178_j6897717477609_1_alg».proof.Proof.RefValue
import Idealize.ShloMosaic.Adequacy
import Idealize.ShloMosaic.Init

noncomputable section

namespace Cert.Proof

open Idealize.ShloMosaic Idealize.SL.Sem Cert.LogicConv

section Claims

variable [hK : Cert.Kernel.Facts] [hKI : Cert.KernelIdeal.Facts] [hRI : Cert.ReferenceIdeal.Facts] [hP : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `result` of the (agreeing) arguments. -/
theorem algebraic : Cert.algebraic_KernelIdeal_ReferenceIdeal := by
  intro m ρ m' ρ' hpre hagree
  have hd := fun c => Cert.LogicConv.PreDecode.decode _ _ _ _ (hpre c)
  refine ⟨fun c => (result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) : SO.Idx → EReal),
    Cert.KernelIdeal.ArrayValue.run_result m ρ (fun c => (hd c).2.2.1) (fun c => (hd c).2.2.2), ?_⟩
  have hX' : ∀ c : Dev Cert.ReferenceIdeal.nD, Finite (s := SX) (m' ((c.tc : Thread Cert.ReferenceIdeal.nD Cert.ReferenceIdeal.τ).loc Cert.ReferenceIdeal.main_arg0)) :=
    fun c => by rw [(hagree c).1]; exact (hd c).1
  have hW' : ∀ c : Dev Cert.ReferenceIdeal.nD, Finite (s := SW) (m' ((c.tc : Thread Cert.ReferenceIdeal.nD Cert.ReferenceIdeal.τ).loc Cert.ReferenceIdeal.main_arg3)) :=
    fun c => by rw [(hagree c).2.2.2]; exact (hd c).2.1
  have hA' : ∀ c : Dev Cert.ReferenceIdeal.nD, InRange (m' ((c.tc : Thread Cert.ReferenceIdeal.nD Cert.ReferenceIdeal.τ).loc Cert.ReferenceIdeal.main_arg1)) :=
    fun c => by rw [(hagree c).2.1]; exact (hd c).2.2.1
  have hB' : ∀ c : Dev Cert.ReferenceIdeal.nD, InRange (m' ((c.tc : Thread Cert.ReferenceIdeal.nD Cert.ReferenceIdeal.τ).loc Cert.ReferenceIdeal.main_arg2)) :=
    fun c => by rw [(hagree c).2.2.1]; exact (hd c).2.2.2
  refine (θ_run Cert.ReferenceIdeal.defs _ _).mono (fun _ h c => ⟨(h c).1.trans ?_, (h c).2⟩)
    (Cert.ReferenceIdeal.RefValue.run_result m' ρ' hX' hW' hA' hB')
  rw [(hagree c).1, (hagree c).2.1, (hagree c).2.2.1, (hagree c).2.2.2]

end Claims

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
